-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S8192x512 .f32) (main_arg1 : IVec S8192x8192 32) (main_arg2 : FVec F S512x64 .f32) (main_arg3 : FVec F S128x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S8192x64 : Shape := ⟨2, ![8192, 64]⟩
abbrev S8192x1 : Shape := ⟨2, ![8192, 1]⟩
abbrev S2048x512 : Shape := ⟨2, ![2048, 512]⟩
abbrev S2048x64 : Shape := ⟨2, ![2048, 64]⟩
abbrev S2048x1 : Shape := ⟨2, ![2048, 1]⟩
abbrev S64x1 : Shape := ⟨2, ![64, 1]⟩
abbrev S1x8192 : Shape := ⟨2, ![1, 8192]⟩
abbrev S512x1 : Shape := ⟨2, ![512, 1]⟩
abbrev S512x8192 : Shape := ⟨2, ![512, 8192]⟩
abbrev S512 : Shape := ⟨1, ![512]⟩

abbrev nBuf : Space → Nat
  | .hbm => 9
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x64, .f32⟩
  | .hbm, ⟨3, _⟩ => ⟨S128x1, .f32⟩
  | .hbm, ⟨4, _⟩ => ⟨S8192x64, .f32⟩
  | .hbm, ⟨5, _⟩ => ⟨S8192x1, .f32⟩
  | .hbm, ⟨6, _⟩ => ⟨S8192x1, .f32⟩
  | .hbm, ⟨7, _⟩ => ⟨S1x8192, .f32⟩
  | .hbm, ⟨8, _⟩ => ⟨S8192x64, .f32⟩
  | .local _ .vmem, ⟨0, _⟩ => ⟨S2048x512, .f32⟩
  | .local _ .vmem, ⟨1, _⟩ => ⟨S2048x512, .f32⟩
  | .local _ .vmem, ⟨2, _⟩ => ⟨S512x64, .f32⟩
  | .local _ .vmem, ⟨3, _⟩ => ⟨S128x1, .f32⟩
  | .local _ .vmem, ⟨4, _⟩ => ⟨S2048x64, .f32⟩
  | .local _ .vmem, ⟨5, _⟩ => ⟨S2048x64, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S512x1, .f32⟩
  | .local _ .vmem, ⟨11, _⟩ => ⟨S512x1, .f32⟩
  | .local _ .vmem, ⟨12, _⟩ => ⟨S1x8192, .f32⟩
  | .local _ .vmem, ⟨13, _⟩ => ⟨S512x8192, .i32⟩
  | .local _ .vmem, ⟨14, _⟩ => ⟨S512x8192, .i32⟩
  | .local _ .vmem, ⟨15, _⟩ => ⟨S8192x64, .f32⟩
  | .local _ .vmem, ⟨16, _⟩ => ⟨S512x64, .f32⟩
  | .local _ .vmem, ⟨17, _⟩ => ⟨S512x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2048x512_S2048x512_0_0 : ∀ a, (![0, 0] : Fin 2 → Nat) a + S2048x512.size a ≤ S2048x512.size a
  h_S2048x512 : 0 < S2048x512.numel
  inb_S512x64_S512x64_0_0 : ∀ a, (![0, 0] : Fin 2 → Nat) a + S512x64.size a ≤ S512x64.size a
  h_S512x64 : 0 < S512x64.numel
  inb_S128x1_S128x1_0_0 : ∀ a, (![0, 0] : Fin 2 → Nat) a + S128x1.size a ≤ S128x1.size a
  h_S128x1 : 0 < S128x1.numel
  slices_S128x1_o0_0_S64x1 : S128x1.Slices ![0, 0] S64x1
  slices_S128x1_o64_0_S64x1 : S128x1.Slices ![64, 0] S64x1
  inb_S2048x64_S2048x64_0_0 : ∀ a, (![0, 0] : Fin 2 → Nat) a + S2048x64.size a ≤ S2048x64.size a
  h_S2048x64 : 0 < S2048x64.numel
  inb_S2048x1_S2048x1_0_0 : ∀ a, (![0, 0] : Fin 2 → Nat) a + S2048x1.size a ≤ S2048x1.size a
  h_S2048x1 : 0 < S2048x1.numel
  shapeCasts_S8192x1_S1x8192 : S8192x1.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S512x1_S512x8192 : S512x1.Broadcasts S512x8192
  broadcasts_S1x8192_S512x8192 : S1x8192.Broadcasts S512x8192
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S512x1_S512x64 : S512x1.Broadcasts S512x64
  dot_S2048x512_S512x64_S2048x64_1_0_0_1_n_n_wf : DotDims.WF S2048x512 S512x64 S2048x64 [1] [0] [0] [1] [] []
  dot_S2048x64_S64x1_S2048x1_1_0_0_1_n_n_wf : DotDims.WF S2048x64 S64x1 S2048x1 [1] [0] [0] [1] [] []
  dot_S512x8192_S8192x64_S512x64_1_0_0_1_n_n_wf : DotDims.WF S512x8192 S8192x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S8192x64.size a
  hwx0_3 : ∀ i : grid0.Coords, EltTy.bits .f32 = 32 ∨ (Rect.block (s := S8192x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S8192x1.size a
  hwx0_5 : ∀ i : grid0.Coords, EltTy.bits .f32 = 32 ∨ (Rect.block (s := S8192x1) S2048x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .f32 = 32 ∨ (Rect.block (s := S8192x1) S512x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x8192.size a ≤ S8192x8192.size a
  hwx1_2 : ∀ i : grid1.Coords, EltTy.bits .i32 = 32 ∨ (Rect.block (s := S8192x8192) S512x8192.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S8192x64.size a
  hwx1_3 : ∀ i : grid1.Coords, EltTy.bits .f32 = 32 ∨ (Rect.block (s := S8192x64) S8192x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S8192x64.size a
  hwx1_4 : ∀ i : grid1.Coords, EltTy.bits .f32 = 32 ∨ (Rect.block (s := S8192x64) S512x64.size (cc1_transform_4 i) (hinb1_4 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_1) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S8192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S8192x1, .f32⟩
  | .hbm, ⟨7, _⟩ => ⟨S64x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .i1⟩
  | .hbm, ⟨45, _⟩ => ⟨S_, .f32⟩
  | .hbm, ⟨46, _⟩ => ⟨S8192x64, .f32⟩
  | .hbm, ⟨47, _⟩ => ⟨S8192x64, .i1⟩
  | .hbm, ⟨48, _⟩ => ⟨S_, .f32⟩
  | .hbm, ⟨49, _⟩ => ⟨S_, .f32⟩
  | .hbm, ⟨50, _⟩ => ⟨S8192x64, .f32⟩
  | .hbm, ⟨51, _⟩ => ⟨S8192x64, .f32⟩
  | .hbm, ⟨52, _⟩ => ⟨S8192x64, .f32⟩
  | .hbm, ⟨53, _⟩ => ⟨S_, .f32⟩
  | .hbm, ⟨54, _⟩ => ⟨S8192x64, .f32⟩
  | .hbm, ⟨55, _⟩ => ⟨S8192x64, .f32⟩
  | .hbm, ⟨56, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_cst_0 : Ref sig .tc := ⟨.hbm, 45, rfl⟩
abbrev main_call2_v2 : Ref sig .tc := ⟨.hbm, 46, rfl⟩
abbrev main_call2_v3 : Ref sig .tc := ⟨.hbm, 47, rfl⟩
abbrev main_call2_cst_1 : Ref sig .tc := ⟨.hbm, 48, rfl⟩
abbrev main_call2_call0_v0 : Ref sig .tc := ⟨.hbm, 49, rfl⟩
abbrev main_call2_call0_v1 : Ref sig .tc := ⟨.hbm, 50, rfl⟩
abbrev main_call2_v4 : Ref sig .tc := ⟨.hbm, 51, rfl⟩
abbrev main_call2_v5 : Ref sig .tc := ⟨.hbm, 52, rfl⟩
abbrev main_call2_cst_2 : Ref sig .tc := ⟨.hbm, 53, rfl⟩
abbrev main_call2_v6 : Ref sig .tc := ⟨.hbm, 54, rfl⟩
abbrev main_call2_v7 : Ref sig .tc := ⟨.hbm, 55, rfl⟩
abbrev main_v26 : Ref sig .tc := ⟨.hbm, 56, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  dot_S8192x512_S512x64_S8192x64_1_0_0_1_n_n_wf : DotDims.WF S8192x512 S512x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Spec.lean ====
/-
  The graph-attention layer, index by index, on the extended reals.

  For node features x (8192 × 512), weights w (512 × 64), an attention vector a (128 × 1) and an integer adjacency
  matrix adj (8192 × 8192):
    feat  i j = ∑ k, x[i,k] · w[k,j]                       the projected features
    srcT  i   = ∑ j, feat i j · a[j]                        the first half of a against node i
    dstT  k   = ∑ j, feat k j · a[64 + j]                   the second half of a against node k
  and, for one row i, over its data s1 = srcT i, h2 = dstT, ar = adj[i,·], H = feat:
    score k = leaky(s1 + h2 k) where adj[i,k] > 0, else 0   (the masked entries are 0, not −∞)
    M       = the maximum of the scores of the row
    wgt k   = exp (score k − M),   den = ∑ k, wgt k
    agg j   = the weights, normalised by den, against column j of H
    out j   = elu (agg j).
  The row is written twice, as the two programs spell it. They differ in three places: the leaky rectifier as
  max(r, α·r) against a choice on the sign of r; the division by den after the weighted sum against a division of
  every weight before it; and elu's negative branch as exp y − 1 against 1 · (exp (y or 0) − 1).
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![8192, 512]⟩
abbrev SAdj : Shape := ⟨2, ![8192, 8192]⟩
abbrev SW : Shape := ⟨2, ![512, 64]⟩
abbrev SAtt : Shape := ⟨2, ![128, 1]⟩
abbrev SOut : Shape := ⟨2, ![8192, 64]⟩

/-- The rectifier's negative slope, the f32 nearest to 0.2 (both programs carry this same pattern). -/
def alpha : EReal := Ideal.ofBits .f32 0x3E4CCCCD#32
/-- The patterns of 0, 1 and −∞ as both programs print them. -/
def zeroF : EReal := Ideal.ofBits .f32 0x00000000#32
def oneF : EReal := Ideal.ofBits .f32 0x3F800000#32
def negInfF : EReal := Ideal.ofBits .f32 0xFF800000#32

/-! ## One row of the attention, from the row's data -/

section Row

variable (s1 : EReal) (h2 : Fin 8192 → EReal) (ar : Fin 8192 → BitVec 32) (H : Fin 8192 → Fin 64 → EReal)

/-! ### As the kernel spells it -/

/-- The masked score of neighbour k: max(r, α·r) of r = s1 + h2 k where the adjacency entry is positive, else 0. -/
def scoreK (k : Fin 8192) : EReal :=
  Scalar.select (IntOp.cmpi .sgt (ar k) 0#32) (max (s1 + h2 k) (alpha * (s1 + h2 k))) zeroF
/-- The row's maximum score, folded from −∞. -/
def rowMaxK : EReal := (Finset.univ : Finset (Fin 8192)).fold max negInfF (scoreK s1 h2 ar)
/-- The unnormalised weight of neighbour k. -/
def wgtK (k : Fin 8192) : EReal := Ideal.exp (scoreK s1 h2 ar k - rowMaxK s1 h2 ar)
/-- The normaliser. -/
def denK : EReal := ∑ k : Fin 8192, wgtK s1 h2 ar k
/-- The weighted sum of column j, divided by the normaliser afterwards. -/
def aggK (j : Fin 64) : EReal := Ideal.div (∑ k : Fin 8192, wgtK s1 h2 ar k * H k j) (denK s1 h2 ar)
/-- elu of it: the value where positive, else exp − 1. -/
def outK (j : Fin 64) : EReal :=
  Scalar.select (Ideal.cmp .ogt (aggK s1 h2 ar H j) zeroF) (aggK s1 h2 ar H j) (Ideal.exp (aggK s1 h2 ar H j) - oneF)

/-! ### As the reference spells it -/

/-- The masked score: r where r ≥ 0, else α·r, of r = s1 + h2 k, where the adjacency entry is positive, else 0. -/
def scoreR (k : Fin 8192) : EReal :=
  Scalar.select (IntOp.cmpi .sgt (ar k) 0#32)
    (Scalar.select (Ideal.cmp .oge (s1 + h2 k) zeroF) (s1 + h2 k) (alpha * (s1 + h2 k))) zeroF
/-- The row's maximum, folded from −∞ and once more compared with −∞. -/
def rowMaxR : EReal := max negInfF ((Finset.univ : Finset (Fin 8192)).fold max negInfF (scoreR s1 h2 ar))
def wgtR (k : Fin 8192) : EReal := Ideal.exp (scoreR s1 h2 ar k - rowMaxR s1 h2 ar)
/-- The normaliser, summed from the pattern of 0. -/
def denR : EReal := zeroF + ∑ k : Fin 8192, wgtR s1 h2 ar k
/-- The normalised weights against column j: every weight divided first. -/
def aggR (j : Fin 64) : EReal := ∑ k : Fin 8192, Ideal.div (wgtR s1 h2 ar k) (denR s1 h2 ar) * H k j
/-- elu of it: the value where positive, else 1 · (exp (0 where positive, else the value) − 1). -/
def outR (j : Fin 64) : EReal :=
  Scalar.select (Ideal.cmp .ogt (aggR s1 h2 ar H j) zeroF) (aggR s1 h2 ar H j)
    (oneF * (Ideal.exp (Scalar.select (Ideal.cmp .ogt (aggR s1 h2 ar H j) zeroF) zeroF (aggR s1 h2 ar H j)) - 1))

end Row

/-! ## The projections, and the whole result -/

section Whole

variable (x : FVec Ideal SX .f32) (adj : IVec SAdj 32) (w : FVec Ideal SW .f32) (a : FVec Ideal SAtt .f32)

/-- The projected features x · w. -/
def feat (i : Fin 8192) (j : Fin 64) : EReal := ∑ k : Fin 512, x (ix2 i k) * w (ix2 k j)
/-- Row i of the features against the first 64 entries of a. -/
def srcT (i : Fin 8192) : EReal :=
  ∑ j : Fin 64, feat x w i j * a (ix2 (⟨j.val, by omega⟩ : Fin 128) (0 : Fin 1))
/-- Row i of the features against the last 64 entries of a. -/
def dstT (i : Fin 8192) : EReal :=
  ∑ j : Fin 64, feat x w i j * a (ix2 (⟨64 + j.val, by omega⟩ : Fin 128) (0 : Fin 1))
/-- Row i of the adjacency matrix. -/
def adjRow (i : Fin 8192) (k : Fin 8192) : BitVec 32 := adj (ix2 i k)

/-- The layer's result as the kernel spells it. -/
def resultK : FVec Ideal SOut .f32 := fun idx =>
  outK (srcT x w a (idx 0)) (dstT x w a) (adjRow adj (idx 0)) (feat x w) (idx 1)
/-- The layer's result as the reference spells it. -/
def resultR : FVec Ideal SOut .f32 := fun idx =>
  outR (srcT x w a (idx 0)) (dstT x w a) (adjRow adj (idx 0)) (feat x w) (idx 1)

end Whole

end Cert.Spec

end
-- ==== Proof.Law.lean ====
/-
  The two spellings of one attention row are equal where the row's data are real numbers.
-/
import proofs.«412186_j24249385353318_3_alg».proof.Proof.Spec

noncomputable section

open scoped BigOperators

namespace Cert.Spec

open Idealize.ShloMosaic Idealize.ShloMosaic.ValueIdx

/-! ## The constants -/

theorem zeroF_eq : zeroF = 0 := by unfold zeroF; simp [Ideal.ofBits, Ideal.ieee]
theorem oneF_eq : oneF = 1 := by unfold oneF; simp [Ideal.ofBits, Ideal.ieee, -EReal.coe_mul]; norm_num
theorem negInfF_eq : negInfF = ⊥ := by unfold negInfF; simp [Ideal.ofBits, Ideal.ieee]

/-- The rectifier's slope as a real number: 13421773 · 2⁻²⁶, strictly between 0 and 1. -/
def alphaR : ℝ := 13421773 / 67108864
theorem alpha_eq : alpha = (alphaR : EReal) := by
  unfold alpha alphaR; simp [Ideal.ofBits, Ideal.ieee, -EReal.coe_mul]; norm_num
theorem alphaR_pos : 0 < alphaR := by unfold alphaR; norm_num
theorem alphaR_lt_one : alphaR < 1 := by unfold alphaR; norm_num

/-! ## Real numbers inside the extended reals: products and finite sums -/

theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- The coercion commutes with a finite sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem sum_real {ι : Type} [Fintype ι] (f : ι → EReal) (hf : ∀ k, ∃ r : ℝ, f k = (r : EReal)) :
    ∃ r : ℝ, ∑ k, f k = (r : EReal) := by
  choose g hg using hf
  exact ⟨∑ k, g k, by rw [← coe_sum]; exact Finset.sum_congr rfl (fun k _ => hg k)⟩

/-- A maximum folded from −∞ over real numbers is −∞ over the empty set and a real number otherwise. -/
theorem fold_max_real {ι : Type} [DecidableEq ι] (f : ι → EReal) (hf : ∀ k, ∃ r : ℝ, f k = (r : EReal)) (s : Finset ι) :
    s = ∅ ∨ ∃ r : ℝ, s.fold max ⊥ f = (r : EReal) := by
  induction s using Finset.induction_on with
  | empty => exact Or.inl rfl
  | insert a s ha ih =>
    right
    obtain ⟨r, hr⟩ := hf a
    rw [Finset.fold_insert ha, hr]
    rcases ih with h | ⟨m, hm⟩
    · rw [h, Finset.fold_empty]; exact ⟨r, max_eq_left bot_le⟩
    · rw [hm]
      rcases le_total r m with h | h
      · exact ⟨m, max_eq_right (EReal.coe_le_coe_iff.2 h)⟩
      · exact ⟨r, max_eq_left (EReal.coe_le_coe_iff.2 h)⟩

/-- Dividing a weighted sum by the sum of the weights is weighting by the divided weights, when the weights'
    sum is a nonzero real number. -/
theorem div_sum_eq {ι : Type} [Fintype ι] (w H : ι → ℝ) (hd : (∑ k, w k) ≠ 0) :
    Ideal.div (∑ k, (w k : EReal) * (H k : EReal)) (∑ k, (w k : EReal))
      = ∑ k, Ideal.div (w k : EReal) (∑ k, (w k : EReal)) * (H k : EReal) := by
  rw [coe_sum Finset.univ w]
  simp only [Ideal.div_coe hd, ← EReal.coe_mul]
  rw [coe_sum, coe_sum, ← EReal.coe_mul, Finset.sum_mul]
  congr 1
  exact Finset.sum_congr rfl (fun k _ => by ring)

/-! ## The rectifier -/

/-- max(t, α·t) is t where t ≥ 0 and α·t elsewhere, for a real t and 0 < α < 1. -/
theorem leaky_eq (t : EReal) (ht : ∃ r : ℝ, t = (r : EReal)) :
    max t (alpha * t) = Scalar.select (Ideal.cmp .oge t zeroF) t (alpha * t) := by
  obtain ⟨r, rfl⟩ := ht
  rw [alpha_eq, zeroF_eq, ← EReal.coe_mul]
  by_cases h : 0 ≤ r
  · have hc : Ideal.cmp .oge (r : EReal) 0 = 1#1 := by simp [Ideal.cmp, h]
    rw [hc, select_one]
    exact max_eq_left (EReal.coe_le_coe_iff.2 (by nlinarith [mul_nonneg (sub_nonneg.2 alphaR_lt_one.le) h]))
  · have hc : Ideal.cmp .oge (r : EReal) 0 = 0#1 := by simp [Ideal.cmp, h]
    rw [hc, select_zero]
    exact max_eq_right (EReal.coe_le_coe_iff.2
      (by nlinarith [mul_pos (sub_pos.2 alphaR_lt_one) (neg_pos.2 (not_le.1 h))]))

/-! ## One row -/

section Row

variable (s1 : EReal) (h2 : Fin 8192 → EReal) (ar : Fin 8192 → BitVec 32) (H : Fin 8192 → Fin 64 → EReal)
variable (hs : ∃ r : ℝ, s1 = (r : EReal)) (hh : ∀ k, ∃ r : ℝ, h2 k = (r : EReal))

include hs hh

theorem scoreK_eq_scoreR : scoreK s1 h2 ar = scoreR s1 h2 ar := by
  funext k
  obtain ⟨a, rfl⟩ := hs
  obtain ⟨b, hb⟩ := hh k
  unfold scoreK scoreR
  rw [leaky_eq ((a : EReal) + h2 k) ⟨a + b, by rw [hb, EReal.coe_add]⟩]

/-- Every score is a real number: the rectified sum, or the pattern of 0. -/
theorem scoreK_real (k : Fin 8192) : ∃ r : ℝ, scoreK s1 h2 ar k = (r : EReal) := by
  obtain ⟨a, rfl⟩ := hs
  obtain ⟨b, hb⟩ := hh k
  unfold scoreK
  rw [hb, alpha_eq, zeroF_eq, ← EReal.coe_add, ← EReal.coe_mul]
  by_cases hc : IntOp.cmpi .sgt (ar k) 0#32 = 1#1
  · rw [hc, select_one]
    rcases le_total (a + b) (alphaR * (a + b)) with h | h
    · exact ⟨_, max_eq_right (EReal.coe_le_coe_iff.2 h)⟩
    · exact ⟨_, max_eq_left (EReal.coe_le_coe_iff.2 h)⟩
  · rw [eq_zero_of_ne_one hc, select_zero]; exact ⟨0, rfl⟩

/-- The row's maximum is a real number. -/
theorem rowMaxK_real : ∃ m : ℝ, rowMaxK s1 h2 ar = (m : EReal) := by
  unfold rowMaxK
  rw [negInfF_eq]
  exact (fold_max_real _ (scoreK_real s1 h2 ar hs hh) Finset.univ).resolve_left Finset.univ_nonempty.ne_empty

/-- Every weight is a positive real number. -/
theorem wgtK_pos (k : Fin 8192) : ∃ r : ℝ, 0 < r ∧ wgtK s1 h2 ar k = (r : EReal) := by
  obtain ⟨a, ha⟩ := scoreK_real s1 h2 ar hs hh k
  obtain ⟨m, hm⟩ := rowMaxK_real s1 h2 ar hs hh
  unfold wgtK
  rw [ha, hm, ← EReal.coe_sub, Ideal.exp_coe]
  exact ⟨_, Real.exp_pos _, rfl⟩

theorem rowMaxR_eq : rowMaxR s1 h2 ar = rowMaxK s1 h2 ar := by
  unfold rowMaxR rowMaxK
  rw [scoreK_eq_scoreR s1 h2 ar hs hh, negInfF_eq]
  exact max_eq_right bot_le

theorem wgtR_eq : wgtR s1 h2 ar = wgtK s1 h2 ar := by
  funext k
  unfold wgtR wgtK
  rw [scoreK_eq_scoreR s1 h2 ar hs hh, rowMaxR_eq s1 h2 ar hs hh]

theorem denR_eq : denR s1 h2 ar = denK s1 h2 ar := by
  unfold denR denK
  rw [wgtR_eq s1 h2 ar hs hh, zeroF_eq, zero_add]

variable (hH : ∀ k j, ∃ r : ℝ, H k j = (r : EReal))

include hH

theorem aggK_eq_aggR (j : Fin 64) : aggK s1 h2 ar H j = aggR s1 h2 ar H j := by
  choose wr hwpos hwr using wgtK_pos s1 h2 ar hs hh
  choose Hr hHr using fun k => hH k j
  unfold aggK aggR
  rw [denR_eq s1 h2 ar hs hh, wgtR_eq s1 h2 ar hs hh]
  unfold denK
  rw [show wgtK s1 h2 ar = fun k => (wr k : EReal) from funext hwr]
  simp only [hHr]
  exact div_sum_eq wr Hr (Finset.sum_pos (fun k _ => hwpos k) Finset.univ_nonempty).ne'

end Row

theorem outK_eq_outR (s1 : EReal) (h2 : Fin 8192 → EReal) (ar : Fin 8192 → BitVec 32) (H : Fin 8192 → Fin 64 → EReal)
    (hs : ∃ r : ℝ, s1 = (r : EReal)) (hh : ∀ k, ∃ r : ℝ, h2 k = (r : EReal)) (hH : ∀ k j, ∃ r : ℝ, H k j = (r : EReal))
    (j : Fin 64) : outK s1 h2 ar H j = outR s1 h2 ar H j := by
  unfold outK outR
  rw [← aggK_eq_aggR s1 h2 ar H hs hh hH j, oneF_eq, zeroF_eq]
  by_cases hc : Ideal.cmp .ogt (aggK s1 h2 ar H j) 0 = 1#1
  · simp only [hc, select_one]
  · simp only [eq_zero_of_ne_one hc, select_zero, one_mul]

/-! ## The projections of real inputs are real -/

section Whole

variable (x : FVec Ideal SX .f32) (w : FVec Ideal SW .f32) (a : FVec Ideal SAtt .f32)
variable (hx : ∀ i, ∃ r : ℝ, x i = (r : EReal)) (hw : ∀ i, ∃ r : ℝ, w i = (r : EReal))

include hx hw

theorem feat_real (i : Fin 8192) (j : Fin 64) : ∃ r : ℝ, feat x w i j = (r : EReal) :=
  sum_real _ (fun _ => mul_real (hx _) (hw _))

variable (ha : ∀ i, ∃ r : ℝ, a i = (r : EReal))

include ha

theorem srcT_real (i : Fin 8192) : ∃ r : ℝ, srcT x w a i = (r : EReal) :=
  sum_real _ (fun j => mul_real (feat_real x w hx hw i j) (ha _))

theorem dstT_real (i : Fin 8192) : ∃ r : ℝ, dstT x w a i = (r : EReal) :=
  sum_real _ (fun j => mul_real (feat_real x w hx hw i j) (ha _))

end Whole

theorem resultK_eq_resultR (x : FVec Ideal SX .f32) (adj : IVec SAdj 32) (w : FVec Ideal SW .f32) (a : FVec Ideal SAtt .f32)
    (hx : ∀ i, ∃ r : ℝ, x i = (r : EReal)) (hw : ∀ i, ∃ r : ℝ, w i = (r : EReal)) (ha : ∀ i, ∃ r : ℝ, a i = (r : EReal)) :
    resultK x adj w a = resultR x adj w a := by
  funext idx
  exact outK_eq_outR _ _ _ _ (srcT_real x w a hx hw ha _) (dstT_real x w a hx hw ha) (feat_real x w hx hw) _

end Cert.Spec

end
-- ==== Proof.Finite.lean ====
/-
  Under the precondition every entry of the three float inputs is a real number.
-/
import proofs.«412186_j24249385353318_3_alg».proof.Pre_finite_inputs
import proofs.«412186_j24249385353318_3_alg».proof.Proof.Gen.Pre_finite_inputs
import Idealize.ShloMosaic.PureOps.Ideal
import Idealize.ShloMosaic.Lib.ReduceAll

noncomputable section

namespace Cert.Finite

open Idealize.ShloMosaic Cert.Pre_finite_inputs

/-- The shape of rank 0 has one index. -/
instance : Subsingleton S_.Idx := ⟨fun a b => funext fun d => d.elim0⟩

/-- An extended real whose absolute value max v (−v) is strictly below +∞ is a real number. -/
theorem real_of_abs_lt (v : EReal)
    (h : Ideal.cmp .olt (max v (-v)) (Ideal.ofBits .f32 0x7F800000#32) = 1#1) : ∃ r : ℝ, v = (r : EReal) := by
  have hT : Ideal.ofBits .f32 0x7F800000#32 = ⊤ := by simp [Ideal.ofBits, Ideal.ieee]
  rw [hT] at h
  induction v using EReal.rec with
  | bot => simp [Ideal.cmp] at h
  | coe r => exact ⟨r, rfl⟩
  | top => simp [Ideal.cmp] at h

theorem of_pre (x : FVec Ideal S8192x512 .f32) (adj : IVec S8192x8192 32) (w : FVec Ideal S512x64 .f32) (a : FVec Ideal S128x1 .f32)
    (h : Cert.Pre_finite_inputs.fn (F := Ideal) x adj w a = fun _ => 1#1) :
    (∀ i, ∃ r : ℝ, x i = (r : EReal)) ∧ (∀ i, ∃ r : ℝ, w i = (r : EReal)) ∧ (∀ i, ∃ r : ℝ, a i = (r : EReal)) := by
  have h0 := congrFun h (fun d => d.elim0)
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

end Cert.Finite

end
-- ==== Proof.RefRun.lean ====
/-
  The reference's @main as the list of its 53 host operations (the outlined functions' operations in line at their
  calls, over the calls' buffer records), its run, and the array the run leaves in the result buffer as a composed term
  of the four arguments, stage by stage.
-/
import proofs.«412186_j24249385353318_3_alg».proof.ReferenceIdeal
import proofs.«412186_j24249385353318_3_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: ten of its own, the rectifier's seven (the last its select, in
    the inner call's record), five of its own, the mask's select, fifteen of its own, and elu's fifteen (three of them
    the first inner call's, the last the second's). -/
abbrev ops : List (HloOp τ sig (Elt F)) :=
  [ binary main_arg0 main_arg2 main_v0 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    binary main_v0 main_v1 main_v2 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_arg3 main_v3 ((extractStridedSlice S64x1 ![64, 0] · slices_S128x1_S64x1_64_0) : (⟨S128x1, .f32⟩ : BufTy).Contents (Elt F) → (⟨S64x1, .f32⟩ : BufTy).Contents (Elt F)),
    binary main_v0 main_v3 main_v4 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v8) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v8) main_call0.v4 mulf,
    TRef.ternary main_call0.v1 (.of main_v8) main_call0.v4 main_call0.call0.v0 select,
    nullary main_c (constantI S_ 32 0#32),
    unary main_c main_v10 (broadcastInDim S8192x8192 ![] bcast_S_S8192x8192 : (⟨S_, .i32⟩ : BufTy).Contents (Elt F) → (⟨S8192x8192, .i32⟩ : BufTy).Contents (Elt F)),
    binary main_arg1 main_v10 main_v11 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0x00000000#32),
    unary main_cst_0 main_v12 (broadcastInDim S8192x8192 ![] bcast_S_S8192x8192 : (⟨S_, .f32⟩ : BufTy).Contents (Elt F) → (⟨S8192x8192, .f32⟩ : BufTy).Contents (Elt F)),
    TRef.ternary (.of main_v11) (.of main_v9) (.of main_v12) main_call1.v0 select,
    nullary main_cst_1 (constant S_ .f32 0xFF800000#32),
    binary main_v13 main_cst_1 main_v14 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v15 (broadcastInDim S8192 ![] bcast_S_S8192 : (⟨S_, .f32⟩ : BufTy).Contents (Elt F) → (⟨S8192, .f32⟩ : BufTy).Contents (Elt F)),
    binary main_v15 main_v14 main_v16 (maximumf : (⟨S8192, .f32⟩ : BufTy).Contents (Elt F) → (⟨S8192, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v17 main_v18 (broadcastInDim S8192x8192 ![0, 1] bcast_S8192x1_S8192x8192_0_1 : (⟨S8192x1, .f32⟩ : BufTy).Contents (Elt F) → (⟨S8192x8192, .f32⟩ : BufTy).Contents (Elt F)),
    binary main_v13 main_v18 main_v19 (subf : (⟨S8192x8192, .f32⟩ : BufTy).Contents (Elt F) → (⟨S8192x8192, .f32⟩ : BufTy).Contents (Elt F) → (⟨S8192x8192, .f32⟩ : BufTy).Contents (Elt F)),
    unary main_v19 main_v20 (Host.exp : (⟨S8192x8192, .f32⟩ : BufTy).Contents (Elt F) → (⟨S8192x8192, .f32⟩ : BufTy).Contents (Elt F)),
    nullary main_cst_3 (constant S_ .f32 0x00000000#32),
    binary main_v20 main_cst_3 main_v21 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v21 main_v22 (broadcastInDim S8192x1 ![0] bcast_S8192_S8192x1_0 : (⟨S8192, .f32⟩ : BufTy).Contents (Elt F) → (⟨S8192x1, .f32⟩ : BufTy).Contents (Elt F)),
    unary main_v22 main_v23 (broadcastInDim S8192x8192 ![0, 1] bcast_S8192x1_S8192x8192_0_1 : (⟨S8192x1, .f32⟩ : BufTy).Contents (Elt F) → (⟨S8192x8192, .f32⟩ : BufTy).Contents (Elt F)),
    binary main_v20 main_v23 main_v24 (Host.divf : (⟨S8192x8192, .f32⟩ : BufTy).Contents (Elt F) → (⟨S8192x8192, .f32⟩ : BufTy).Contents (Elt F) → (⟨S8192x8192, .f32⟩ : BufTy).Contents (Elt F)),
    binary main_v24 main_v0 main_v25 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.nullary main_call2.cst (constant S_ .f32 0x00000000#32),
    TRef.unary main_call2.cst main_call2.v0 (broadcastInDim S8192x64 ![] bcast_S_S8192x64),
    TRef.binary (.of main_v25) main_call2.v0 main_call2.v1 (cmpf .ogt),
    TRef.nullary main_call2.cst_0 (constant S_ .f32 0x00000000#32),
    TRef.unary main_call2.cst_0 main_call2.v2 (broadcastInDim S8192x64 ![] bcast_S_S8192x64),
    TRef.binary (.of main_v25) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x64 ![] bcast_S_S8192x64),
    TRef.ternary main_call2.v3 main_call2.call0.v1 (.of main_v25) main_call2.call0.v2 select,
    TRef.unary main_call2.call0.v2 main_call2.v5 Host.expm1,
    TRef.nullary main_call2.cst_2 (constant S_ .f32 0x3F800000#32),
    TRef.unary main_call2.cst_2 main_call2.v6 (broadcastInDim S8192x64 ![] bcast_S_S8192x64),
    TRef.binary main_call2.v6 main_call2.v5 main_call2.v7 mulf,
    TRef.ternary main_call2.v1 (.of main_v25) main_call2.v7 main_call2.call1.v0 select ]

-- fifty-three binds re-associated: the rewrite under the chain recurses once per statement
set_option maxRecDepth 4096 in
/-- @main is that straight line: the functions' definitions unfolded at their calls and the records at their fields,
    both sides are one chain of `hlo` steps once sequencing is reassociated. -/
theorem main_eq (c : Dev nD) : main (F := F) c = seq ops := by
  simp only [main, fn_leaky_relu.body, fn_where.body, fn_elu.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub .., unary_bufs_sub ..,
    ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as a composed term, stage by stage

The arrays the operations leave, each a function of the four arguments' contents: the projected features, the two
attention terms, the raw and rectified and masked scores, the rows' maxima, the weights, the normalisers, the normalised
weights, the aggregate and its elu. -/

section Stages

variable (x : FVec F S8192x512 .f32) (adj : IVec S8192x8192 32) (w : FVec F S512x64 .f32) (a : FVec F S128x1 .f32)

/-- The projected features. -/
def feat : FVec F S8192x64 .f32 := Host.dotGeneral dot_S8192x512_S512x64_S8192x64_1_0_0_1_n_n none x w
/-- The features against the first half of the attention vector, a column. -/
def src : FVec F S8192x1 .f32 :=
  Host.dotGeneral dot_S8192x64_S64x1_S8192x1_1_0_0_1_n_n none (feat x w) (extractStridedSlice S64x1 ![0, 0] a slices_S128x1_S64x1_0_0)
/-- The features against the second half, a column. -/
def dst : FVec F S8192x1 .f32 :=
  Host.dotGeneral dot_S8192x64_S64x1_S8192x1_1_0_0_1_n_n none (feat x w) (extractStridedSlice S64x1 ![64, 0] a slices_S128x1_S64x1_64_0)
/-- The raw scores: the first column down the rows plus the second, transposed, along them. -/
def raw : FVec F S8192x8192 .f32 :=
  addf (broadcastInDim S8192x8192 ![0, 1] bcast_S8192x1_S8192x8192_0_1 (src x w a))
    (broadcastInDim S8192x8192 ![0, 1] bcast_S1x8192_S8192x8192_0_1 (transpose S1x8192 [1, 0] (dst x w a) transposes_S8192x1_S1x8192_1_0))
/-- The rectified scores: the raw one where it is at least zero, else the slope times it. -/
def leaky : FVec F S8192x8192 .f32 :=
  select (cmpf .oge (raw x w a) (broadcastInDim S8192x8192 ![] bcast_S_S8192x8192 (constant S_ .f32 0x00000000#32))) (raw x w a)
    (mulf (broadcastInDim S8192x8192 ![] bcast_S_S8192x8192 (id (constant S_ .f32 0x3E4CCCCD#32))) (raw x w a))
/-- The masked scores: the rectified one where the adjacency entry is positive, else zero. -/
def masked : FVec F S8192x8192 .f32 :=
  select (cmpi .sgt adj (broadcastInDim S8192x8192 ![] bcast_S_S8192x8192 (constantI S_ 32 0#32))) (leaky x w a)
    (broadcastInDim S8192x8192 ![] bcast_S_S8192x8192 (constant S_ .f32 0x00000000#32))
/-- The rows' maxima: the fold from −∞, once more against −∞. -/
def rowMax : FVec F S8192 .f32 :=
  maximumf (broadcastInDim S8192 ![] bcast_S_S8192 (constant S_ .f32 0xFF800000#32))
    (Host.reduce FloatOps.maximumf (masked x adj w a) (constant S_ .f32 0xFF800000#32) reducesTo_S8192x8192_S8192_d1 h_S_)
/-- The weights: the exponential of the score less its row's maximum. -/
def wgt : FVec F S8192x8192 .f32 :=
  Host.exp (subf (masked x adj w a)
    (broadcastInDim S8192x8192 ![0, 1] bcast_S8192x1_S8192x8192_0_1 (broadcastInDim S8192x1 ![0] bcast_S8192_S8192x1_0 (rowMax x adj w a))))
/-- The normalisers: the rows' sums of the weights, from zero. -/
def den : FVec F S8192 .f32 :=
  Host.reduceAdd (wgt x adj w a) (constant S_ .f32 0x00000000#32) reducesTo_S8192x8192_S8192_d1 h_S_
/-- The normalised weights. -/
def nrm : FVec F S8192x8192 .f32 :=
  Host.divf (wgt x adj w a)
    (broadcastInDim S8192x8192 ![0, 1] bcast_S8192x1_S8192x8192_0_1 (broadcastInDim S8192x1 ![0] bcast_S8192_S8192x1_0 (den x adj w a)))
/-- The aggregate: the normalised weights against the features. -/
def agg : FVec F S8192x64 .f32 :=
  Host.dotGeneral dot_S8192x8192_S8192x64_S8192x64_1_0_0_1_n_n none (nrm x adj w a) (feat x w)
/-- elu of the aggregate, with the negative branch as one times the exponential, less one, of the value or zero. -/
def out : FVec F S8192x64 .f32 :=
  select (cmpf .ogt (agg x adj w a) (broadcastInDim S8192x64 ![] bcast_S_S8192x64 (constant S_ .f32 0x00000000#32))) (agg x adj w a)
    (mulf (broadcastInDim S8192x64 ![] bcast_S_S8192x64 (constant S_ .f32 0x3F800000#32))
      (Host.expm1 (select (cmpf .ogt (agg x adj w a) (broadcastInDim S8192x64 ![] bcast_S_S8192x64 (constant S_ .f32 0x00000000#32)))
        (broadcastInDim S8192x64 ![] bcast_S_S8192x64 (id (constant S_ .f32 0x00000000#32))) (agg x adj w a))))

end Stages

attribute [local irreducible] Host.reduce Host.reduceAdd in
set_option maxRecDepth 8192 in
set_option maxHeartbeats 1000000 in
/-- The fold at the result buffer is `out` of the arguments: each operation's result rewritten at its own buffer to its
    function's value and at any other buffer to what was there, the typed references' casts the identity at literal
    references, and the stages unfolded. The reductions are kept folded meanwhile (the equation never looks inside
    them). -/
theorem out_eq (V : Valuation τ sig (Elt F)) :
    after ops V (main_v26 : DevRef τ sig)
      = out (V (main_arg0 : DevRef τ sig)) (V (main_arg1 : DevRef τ sig)) (V (main_arg2 : DevRef τ sig)) (V (main_arg3 : DevRef τ sig)) := by
  after_results_simp
  simp only [TRef.ofBuf, TRef.toBuf, cast_eq]
  unfold out agg nrm den wgt rowMax masked leaky raw dst src feat
  rfl

/-- No operation writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

end Cert.RefRun

end
-- ==== Proof.RefSide.lean ====
/-
  The reference's run: every weakly fair execution ends with the result array at the layer's value as the
  reference spells it, the arguments unchanged. The run leaves the result buffer at a composed term of the four
  arguments; that term is read index by index, one lemma per operation that is not pointwise (the three
  contractions as sums over the contracted coordinate, the slices, the transpose, the broadcasts, the maximum and
  the sum along a row) and one per stage, each stage's value the specification's.
-/
import proofs.«412186_j24249385353318_3_alg».proof.ReferenceIdeal
import proofs.«412186_j24249385353318_3_alg».proof.Proof.Gen.ReferenceIdeal
import proofs.«412186_j24249385353318_3_alg».proof.Proof.Spec
import proofs.«412186_j24249385353318_3_alg».proof.Proof.RefRun
import Idealize.ShloMosaic.PureOps.Ideal.Laws
import Idealize.ShloMosaic.Lib.ValueIdx
import Idealize.ShloMosaic.Lib.IdealHost
import Idealize.ShloMosaic.Lib.StackMember
import Idealize.ShloMosaic.Lib.KernelVsHost
import Idealize.ShloMosaic.Lib.Pipeline.Value
import Idealize.ShloMosaic.Lib.StableHlo.Run

noncomputable section

open scoped BigOperators

namespace Cert.RefSide

open Idealize.ShloMosaic Idealize.ShloMosaic.ValueIdx Idealize.SL.Sem Cert.ReferenceIdeal Cert.ReferenceIdeal.Gen

/-! ## The contractions read at an index

Each of the three dimension records is the plain rows-by-columns one at its sizes, so each product at (i, j) is the sum
over the contracted coordinate of the entries' products. -/

theorem dotXW_eq : dot_S8192x512_S512x64_S8192x64_1_0_0_1_n_n = DotDims.plain 8192 512 64 := rfl
theorem dotFA_eq : dot_S8192x64_S64x1_S8192x1_1_0_0_1_n_n = DotDims.plain 8192 64 1 := rfl
theorem dotPF_eq : dot_S8192x8192_S8192x64_S8192x64_1_0_0_1_n_n = DotDims.plain 8192 8192 64 := rfl

theorem dotXW_apply (x : FVec Ideal S8192x512 .f32) (w : FVec Ideal S512x64 .f32) (i : Fin 8192) (j : Fin 64) :
    Host.dotGeneral (F := Ideal) dot_S8192x512_S512x64_S8192x64_1_0_0_1_n_n none x w (ix2 i j)
      = ∑ k : Fin 512, x (ix2 i k) * w (ix2 k j) := by
  rw [dotXW_eq]
  exact StackMember.dotGeneral_plain_apply none x w i j

theorem dotFA_apply (f : FVec Ideal S8192x64 .f32) (v : FVec Ideal S64x1 .f32) (i : Fin 8192) :
    Host.dotGeneral (F := Ideal) dot_S8192x64_S64x1_S8192x1_1_0_0_1_n_n none f v (ix2 i (0 : Fin 1))
      = ∑ j : Fin 64, f (ix2 i j) * v (ix2 j (0 : Fin 1)) := by
  rw [dotFA_eq]
  exact StackMember.dotGeneral_plain_apply none f v i 0

theorem dotPF_apply (p : FVec Ideal S8192x8192 .f32) (f : FVec Ideal S8192x64 .f32) (i : Fin 8192) (j : Fin 64) :
    Host.dotGeneral (F := Ideal) dot_S8192x8192_S8192x64_S8192x64_1_0_0_1_n_n none p f (ix2 i j)
      = ∑ k : Fin 8192, p (ix2 i k) * f (ix2 k j) := by
  rw [dotPF_eq]
  exact StackMember.dotGeneral_plain_apply none p f i j

/-! ## The layout operations read at an index -/

section Layout
variable {α : Type}

/-- The first 64 rows of the attention vector. -/
theorem sliceLo_apply (v : S128x1.Idx → α) (j : Fin 64) :
    extractStridedSlice S64x1 ![0, 0] v slices_S128x1_S64x1_0_0 (ix2 j (0 : Fin 1))
      = v (ix2 (⟨j.val, by omega⟩ : Fin 128) (0 : Fin 1)) := by
  refine extractStridedSlice_apply ![0, 0] v slices_S128x1_S64x1_0_0 (ix2 j (0 : Fin 1)) (ix2 (⟨j.val, by omega⟩ : Fin 128) (0 : Fin 1)) ?_
  intro a
  match a with
  | ⟨0, _⟩ => show j.val = 0 + j.val; omega
  | ⟨1, _⟩ => rfl

/-- The last 64 rows of the attention vector. -/
theorem sliceHi_apply (v : S128x1.Idx → α) (j : Fin 64) :
    extractStridedSlice S64x1 ![64, 0] v slices_S128x1_S64x1_64_0 (ix2 j (0 : Fin 1))
      = v (ix2 (⟨64 + j.val, by omega⟩ : Fin 128) (0 : Fin 1)) := by
  refine extractStridedSlice_apply ![64, 0] v slices_S128x1_S64x1_64_0 (ix2 j (0 : Fin 1)) (ix2 (⟨64 + j.val, by omega⟩ : Fin 128) (0 : Fin 1)) ?_
  intro a
  match a with
  | ⟨0, _⟩ => rfl
  | ⟨1, _⟩ => rfl

/-- A column laid as a row. -/
theorem colT_apply (v : S8192x1.Idx → α) (k : Fin 8192) :
    transpose S1x8192 [1, 0] v transposes_S8192x1_S1x8192_1_0 (ix2 (0 : Fin 1) k) = v (ix2 k (0 : Fin 1)) := by
  refine transpose_apply [1, 0] v transposes_S8192x1_S1x8192_1_0 (ix2 (0 : Fin 1) k) (ix2 k (0 : Fin 1)) ?_
  intro b
  match b with
  | ⟨0, _⟩ => rfl
  | ⟨1, _⟩ => rfl

/-- A column copied along every row. -/
theorem bcastCol_apply (v : S8192x1.Idx → α) (i k : Fin 8192) :
    broadcastInDim S8192x8192 ![0, 1] bcast_S8192x1_S8192x8192_0_1 v (ix2 i k) = v (ix2 i (0 : Fin 1)) := by
  refine broadcastInDim_apply ![0, 1] bcast_S8192x1_S8192x8192_0_1 v (ix2 i k) (ix2 i (0 : Fin 1)) ?_
  intro a
  match a with
  | ⟨0, _⟩ => rfl
  | ⟨1, _⟩ => rfl

/-- A row copied down every column. -/
theorem bcastRow_apply (v : S1x8192.Idx → α) (i k : Fin 8192) :
    broadcastInDim S8192x8192 ![0, 1] bcast_S1x8192_S8192x8192_0_1 v (ix2 i k) = v (ix2 (0 : Fin 1) k) := by
  refine broadcastInDim_apply ![0, 1] bcast_S1x8192_S8192x8192_0_1 v (ix2 i k) (ix2 (0 : Fin 1) k) ?_
  intro a
  match a with
  | ⟨0, _⟩ => rfl
  | ⟨1, _⟩ => rfl

/-- A vector as a column. -/
theorem vecCol_apply (v : S8192.Idx → α) (i : Fin 8192) :
    broadcastInDim S8192x1 ![0] bcast_S8192_S8192x1_0 v (ix2 i (0 : Fin 1)) = v (ix1 i) := by
  refine broadcastInDim_apply ![0] bcast_S8192_S8192x1_0 v (ix2 i (0 : Fin 1)) (ix1 i) ?_
  intro a
  match a with
  | ⟨0, _⟩ => rfl

end Layout

/-! ## The two reductions along a row -/

theorem reduces_row : Shape.Reduces S8192x8192 [1] S8192 := by decide

theorem lift_row (i k : Fin 8192) : reduces_row.lift (ix1 i) k = ix2 i k := by
  funext c
  apply Fin.ext
  match c with
  | ⟨0, _⟩ => rfl
  | ⟨1, _⟩ => rfl

/-- The maximum along a row, folded from the initial value. -/
theorem rowMax_apply (y : FVec Ideal S8192x8192 .f32) (b : BitVec 32) (i : Fin 8192) :
    Host.reduce (FloatOps.maximumf (F := Ideal) (φ := .f32)) y (constant (F := Ideal) S_ .f32 b) reducesTo_S8192x8192_S8192_d1 h_S_ (ix1 i)
      = (Finset.univ : Finset (Fin 8192)).fold max (Ideal.ofBits .f32 b) (fun k => y (ix2 i k)) := by
  rw [Host.reduce_eq_fold_single (FloatOps.maximumf (F := Ideal) (φ := .f32)) y (constant (F := Ideal) S_ .f32 b)
    reducesTo_S8192x8192_S8192_d1 reduces_row h_S_ (ix1 i)]
  have e : (y ∘ reduces_row.lift (ix1 i)) = fun k => y (ix2 i k) := funext fun k => congrArg y (lift_row i k)
  rw [e]
  rfl

/-- The sum along a row, from the initial value. -/
theorem rowSum_apply (y : FVec Ideal S8192x8192 .f32) (b : BitVec 32) (i : Fin 8192) :
    Host.reduceAdd (F := Ideal) y (constant (F := Ideal) S_ .f32 b) reducesTo_S8192x8192_S8192_d1 h_S_ (ix1 i)
      = Ideal.ofBits .f32 b + ∑ k : Fin 8192, y (ix2 i k) := by
  rw [hostReduceAdd_apply, Ideal.hostReduceAdd_single reducesTo_S8192x8192_S8192_d1 reduces_row]
  refine congrArg₂ (· + ·) rfl (Finset.sum_congr rfl fun k _ => congrArg y (lift_row i k))

/-! ## The stages read at an index -/

open Cert.Spec (srcT dstT adjRow scoreR rowMaxR wgtR denR aggR outR resultR)

section Value

variable (x : FVec Ideal S8192x512 .f32) (adj : IVec S8192x8192 32) (w : FVec Ideal S512x64 .f32) (a : FVec Ideal S128x1 .f32)

theorem feat_apply (i : Fin 8192) (j : Fin 64) : Cert.RefRun.feat x w (ix2 i j) = Cert.Spec.feat x w i j := by
  unfold Cert.RefRun.feat
  exact dotXW_apply x w i j

theorem src_apply (i : Fin 8192) : Cert.RefRun.src x w a (ix2 i (0 : Fin 1)) = srcT x w a i := by
  unfold Cert.RefRun.src
  rw [dotFA_apply]
  unfold Cert.Spec.srcT
  refine Finset.sum_congr rfl fun j _ => ?_
  rw [feat_apply, sliceLo_apply]

theorem dst_apply (i : Fin 8192) : Cert.RefRun.dst x w a (ix2 i (0 : Fin 1)) = dstT x w a i := by
  unfold Cert.RefRun.dst
  rw [dotFA_apply]
  unfold Cert.Spec.dstT
  refine Finset.sum_congr rfl fun j _ => ?_
  rw [feat_apply, sliceHi_apply]

theorem raw_apply (i k : Fin 8192) : Cert.RefRun.raw x w a (ix2 i k) = srcT x w a i + dstT x w a k := by
  unfold Cert.RefRun.raw
  rw [addf_apply, bcastCol_apply, bcastRow_apply, colT_apply, src_apply, dst_apply]

theorem leaky_apply (i k : Fin 8192) :
    Cert.RefRun.leaky x w a (ix2 i k)
      = Scalar.select (Ideal.cmp .oge (srcT x w a i + dstT x w a k) Cert.Spec.zeroF) (srcT x w a i + dstT x w a k)
          (Cert.Spec.alpha * (srcT x w a i + dstT x w a k)) := by
  unfold Cert.RefRun.leaky
  rw [select_apply, cmpf_apply, mulf_apply, broadcastInDim_scalar_apply, broadcastInDim_scalar_apply, raw_apply]
  rfl

theorem masked_apply (i k : Fin 8192) :
    Cert.RefRun.masked x adj w a (ix2 i k) = scoreR (srcT x w a i) (dstT x w a) (adjRow adj i) k := by
  unfold Cert.RefRun.masked
  rw [select_apply, broadcastInDim_scalar_apply, leaky_apply]
  rfl

theorem rowMaxS_apply (i : Fin 8192) :
    Cert.RefRun.rowMax x adj w a (ix1 i) = rowMaxR (srcT x w a i) (dstT x w a) (adjRow adj i) := by
  unfold Cert.RefRun.rowMax
  rw [maximumf_apply, broadcastInDim_scalar_apply, rowMax_apply]
  have e : (fun k => Cert.RefRun.masked x adj w a (ix2 i k)) = scoreR (srcT x w a i) (dstT x w a) (adjRow adj i) :=
    funext fun k => masked_apply x adj w a i k
  rw [e]
  rfl

theorem wgt_apply (i k : Fin 8192) :
    Cert.RefRun.wgt x adj w a (ix2 i k) = wgtR (srcT x w a i) (dstT x w a) (adjRow adj i) k := by
  unfold Cert.RefRun.wgt
  show FloatOps.hostUnary .exp (subf (Cert.RefRun.masked x adj w a) _ (ix2 i k)) = _
  rw [subf_apply, bcastCol_apply, vecCol_apply, masked_apply, rowMaxS_apply]
  rfl

theorem den_apply (i : Fin 8192) :
    Cert.RefRun.den x adj w a (ix1 i) = denR (srcT x w a i) (dstT x w a) (adjRow adj i) := by
  unfold Cert.RefRun.den
  rw [rowSum_apply]
  unfold Cert.Spec.denR
  refine congrArg₂ (· + ·) rfl (Finset.sum_congr rfl fun k _ => wgt_apply x adj w a i k)

theorem nrm_apply (i k : Fin 8192) :
    Cert.RefRun.nrm x adj w a (ix2 i k)
      = Ideal.div (wgtR (srcT x w a i) (dstT x w a) (adjRow adj i) k) (denR (srcT x w a i) (dstT x w a) (adjRow adj i)) := by
  unfold Cert.RefRun.nrm
  rw [hostDivf_apply, bcastCol_apply, vecCol_apply, wgt_apply, den_apply]

theorem agg_apply (i : Fin 8192) (j : Fin 64) :
    Cert.RefRun.agg x adj w a (ix2 i j) = aggR (srcT x w a i) (dstT x w a) (adjRow adj i) (Cert.Spec.feat x w) j := by
  unfold Cert.RefRun.agg
  rw [dotPF_apply]
  unfold Cert.Spec.aggR
  refine Finset.sum_congr rfl fun k _ => ?_
  rw [nrm_apply, feat_apply]

theorem out_apply (i : Fin 8192) (j : Fin 64) :
    Cert.RefRun.out x adj w a (ix2 i j) = outR (srcT x w a i) (dstT x w a) (adjRow adj i) (Cert.Spec.feat x w) j := by
  unfold Cert.RefRun.out
  rw [select_apply, cmpf_apply, mulf_apply, broadcastInDim_scalar_apply, broadcastInDim_scalar_apply]
  show Scalar.select _ _ (_ * FloatOps.hostUnary .expm1 (select _ _ (Cert.RefRun.agg x adj w a) (ix2 i j))) = _
  rw [select_apply, cmpf_apply, broadcastInDim_scalar_apply, broadcastInDim_scalar_apply, agg_apply]
  rfl

/-- The composed term is the layer's result as the reference spells it. -/
theorem out_eq_resultR : Cert.RefRun.out x adj w a = resultR x adj w a := by
  funext idx
  obtain ⟨i, j, rfl⟩ : ∃ (i : Fin 8192) (j : Fin 64), idx = ix2 i j := ⟨idx 0, idx 1, eq_ix2 idx⟩
  exact out_apply x adj w a i j

end Value

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26)
        = Cert.Spec.resultR (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c =>
      ⟨(h c main_v26).trans ((Cert.RefRun.out_eq (StableHlo.launchContents m c)).trans (out_eq_resultR _ _ _ _)),
        (h c main_arg0).trans (Cert.RefRun.arg0_eq _), (h c main_arg1).trans (Cert.RefRun.arg1_eq _),
        (h c main_arg2).trans (Cert.RefRun.arg2_eq _), (h c main_arg3).trans (Cert.RefRun.arg3_eq _)⟩)
    (Cert.RefRun.run_main m ρ)

end Cert.RefSide

end
-- ==== Proof.KernelBlocks.lean ====
/-
  The two kernel bodies read at one index of the block they store, as functions of the blocks they load.
  The projection body stores three blocks: the 2048 rows of features (a product of the loaded rows of x with w), and
  those rows against the first and the last 64 entries of a. The attention body stores, for its 512 rows, one row of
  the attention each, from that row's entry of the first projection, the whole second projection, that row of the
  adjacency block and the whole feature matrix.
-/
import proofs.«412186_j24249385353318_3_alg».proof.Proof.Gen.KernelIdeal.Skeleton
import proofs.«412186_j24249385353318_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelSide

open Idealize.ShloMosaic Idealize.ShloMosaic.ValueIdx Cert.KernelIdeal Cert.KernelIdeal.Gen

/-! ## A product read at an index -/

/-- A product of an m×k by a k×n matrix into the zero splat, the left's second axis against the right's first, read at
    (a, b): the sum over the contracted coordinate of the products of the entries. -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem proj_feat (v0 : Vec Ideal S2048x512 .f32) (v1 : Vec Ideal S512x64 .f32) (p : Fin 2048) (q : Fin 64) :
    k0_pay1 (F := Ideal) v0 v1 (ix2 p q) = ∑ k : Fin 512, (v0 (ix2 p k) : EReal) * v1 (ix2 k q) := by
  unfold k0_pay1
  exact matmul_zero_ix2 _ _ v0 v1 p q

/-! ## The projection body's three blocks -/

theorem proj_src (v0 : Vec Ideal S2048x512 .f32) (v1 : Vec Ideal S512x64 .f32) (v3 : Vec Ideal S128x1 .f32) (p : Fin 2048) (z : Fin 1) :
    k0_pay2 (F := Ideal) v0 v1 v3 (ix2 p z)
      = ∑ j : Fin 64, (∑ k : Fin 512, (v0 (ix2 p k) : EReal) * v1 (ix2 k j)) * v3 (ix2 (⟨j.val, by omega⟩ : Fin 128) (0 : Fin 1)) := by
  unfold k0_pay2
  refine (matmul_zero_ix2 _ _ (k0_pay1 (F := Ideal) v0 v1) _ p z).trans ?_
  refine Finset.sum_congr rfl fun j _ => ?_
  rw [proj_feat]
  obtain rfl : z = 0 := Subsingleton.elim _ _
  exact congrArg _ (slice2_axis0_apply 0 v3 _ j 0 ⟨j.val, by omega⟩ (Nat.zero_add _).symm)

theorem proj_dst (v0 : Vec Ideal S2048x512 .f32) (v1 : Vec Ideal S512x64 .f32) (v3 : Vec Ideal S128x1 .f32) (p : Fin 2048) (z : Fin 1) :
    k0_pay3 (F := Ideal) v0 v1 v3 (ix2 p z)
      = ∑ j : Fin 64, (∑ k : Fin 512, (v0 (ix2 p k) : EReal) * v1 (ix2 k j)) * v3 (ix2 (⟨64 + j.val, by omega⟩ : Fin 128) (0 : Fin 1)) := by
  unfold k0_pay3
  refine (matmul_zero_ix2 _ _ (k0_pay1 (F := Ideal) v0 v1) _ p z).trans ?_
  refine Finset.sum_congr rfl fun j _ => ?_
  rw [proj_feat]
  obtain rfl : z = 0 := Subsingleton.elim _ _
  exact congrArg _ (slice2_axis0_apply 64 v3 _ j 0 ⟨64 + j.val, by omega⟩ rfl)

/-! ## The attention body's layout operations and reductions at an index -/

/-- A column [a, 1] spread along its rows to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (i, u), the vector's entry i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of a 512 × 8192 block over row p with coordinate k put on the reduced axis is (p, k). -/
theorem lift_row (p : Fin 512) (k : Fin 8192) :
    Shape.Reduces.lift (reduces_S512x8192_S512) (ix1 p) k = ix2 p k := by
  funext ax; apply Fin.ext
  match ax with
  | ⟨0, _⟩ => rfl
  | ⟨1, _⟩ => rfl

/-- The rows' maxima, kept as a column and spread back over the rows: at (p, k), the fold of max over row p from −∞. -/
theorem rowMax_spread (src : FVec Ideal S512x8192 .f32) (p : Fin 512) (k : Fin 8192) :
    broadcastTo S512x8192
        (shapeCast S512x1
          (multiReduction (F := Ideal) .maximumf [1] S512 src 0xFF800000#32 reduces_S512x8192_S512 (.inl rfl) rfl)
          shapeCasts_S512_S512x1)
        broadcasts_S512x1_S512x8192 (ix2 p k)
      = (Finset.univ : Finset (Fin 8192)).fold max Cert.Spec.negInfF (fun k => src (ix2 p k)) := by
  refine (broadcastTo_a1_ab_apply _ _ p k).trans ?_
  refine (shapeCast_a_a1_apply _ _ p 0).trans ?_
  refine (Ideal.multiReduction_maximumf_single src _ reduces_S512x8192_S512 _ _ (ix1 p)).trans ?_
  exact congrArg (fun f => (Finset.univ : Finset (Fin 8192)).fold max Cert.Spec.negInfF f)
    (funext fun k => congrArg src (lift_row p k))

/-- The rows' sums, kept as a column and spread over the 64 columns: at (p, q), the sum of row p. -/
theorem rowSum_spread (src : FVec Ideal S512x8192 .f32) (p : Fin 512) (q : Fin 64) :
    broadcastTo S512x64
        (shapeCast S512x1
          (multiReduction (F := Ideal) .add [1] S512 src 0x00000000#32 reduces_S512x8192_S512 (.inl rfl) rfl)
          shapeCasts_S512_S512x1)
        broadcasts_S512x1_S512x64 (ix2 p q)
      = ∑ k : Fin 8192, src (ix2 p k) := by
  refine (broadcastTo_a1_ab_apply _ _ p q).trans ?_
  refine (shapeCast_a_a1_apply _ _ p 0).trans ?_
  refine (Ideal.multiReduction_add_single src _ reduces_S512x8192_S512 _ _ (ix1 p)).trans ?_
  exact Finset.sum_congr rfl fun k _ => congrArg src (lift_row p k)

/-- The rows against the feature matrix: at (p, q), the sum over the neighbours of row p's entries times column q. -/
theorem rows_times_feat (src : FVec Ideal S512x8192 .f32) (v22 : FVec Ideal S8192x64 .f32) (p : Fin 512) (q : Fin 64) :
    matmul dot_S512x8192_S8192x64_S512x64_1_0_0_1_n_n none src
        (shapeCast S8192x64 v22 shapeCasts_S8192x64_S8192x64) (constant (F := Ideal) S512x64 .f32 0x00000000#32) (ix2 p q)
      = ∑ k : Fin 8192, src (ix2 p k) * v22 (ix2 k q) := by
  rw [shapeCast_self]
  exact matmul_zero_ix2 _ _ src v22 p q

/-! ## The attention body in three stages -/

section Attention

variable (v0 : Vec Ideal S512x1 .f32) (v2 : Vec Ideal S1x8192 .f32) (v10 : Vec Ideal S512x8192 .i32)

/-- The masked scores of the block's 512 rows against the 8192 neighbours. -/
def scoreV : FVec Ideal S512x8192 .f32 :=
  have v1 : FVec Ideal S512x1 .f32 := shapeCast S512x1 v0 shapeCasts_S512x1_S512x1
  have v3 : FVec Ideal S1x8192 .f32 := shapeCast S1x8192 v2 shapeCasts_S1x8192_S1x8192
  have v4 : FVec Ideal S512x8192 .f32 := broadcastTo S512x8192 v1 broadcasts_S512x1_S512x8192
  have v5 : FVec Ideal S512x8192 .f32 := broadcastTo S512x8192 v3 broadcasts_S1x8192_S512x8192
  have v6 : FVec Ideal S512x8192 .f32 := addf v4 v5
  have cst : Ideal .f32 := Scalar.ofBits .f32 0x3E4CCCCD#32
  have v7 : FVec Ideal S512x8192 .f32 := broadcast S512x8192 cst
  have v8 : FVec Ideal S512x8192 .f32 := mulf v7 v6
  have v9 : FVec Ideal S512x8192 .f32 := maximumf v6 v8
  have v11 : IVec S512x8192 32 := broadcast S512x8192 0#32
  have v12 : IVec S512x8192 1 := cmpi .sgt v10 v11
  have cst_5 : Ideal .f32 := Scalar.ofBits .f32 0x00000000#32
  have v13 : FVec Ideal S512x8192 .f32 := broadcast S512x8192 cst_5
  select v12 v9 v13

/-- At (p, k) it is the score of neighbour k from row p's data. -/
theorem scoreV_apply (p : Fin 512) (k : Fin 8192) :
    scoreV v0 v2 v10 (ix2 p k)
      = Cert.Spec.scoreK (v0 (ix2 p (0 : Fin 1))) (fun k => v2 (ix2 (0 : Fin 1) k)) (fun k => v10 (ix2 p k)) k := by
  have hA : broadcastTo S512x8192 (shapeCast S512x1 v0 shapeCasts_S512x1_S512x1) broadcasts_S512x1_S512x8192 (ix2 p k)
      = v0 (ix2 p (0 : Fin 1)) := by
    rw [shapeCast_self]; exact broadcastTo_a1_ab_apply v0 _ p k
  have hB : broadcastTo S512x8192 (shapeCast S1x8192 v2 shapeCasts_S1x8192_S1x8192) broadcasts_S1x8192_S512x8192 (ix2 p k)
      = v2 (ix2 (0 : Fin 1) k) := by
    rw [shapeCast_self]; exact broadcastTo_1b_ab_apply v2 _ p k
  show _ = Scalar.select (IntOp.cmpi .sgt (v10 (ix2 p k)) 0#32)
    (max (v0 (ix2 p (0 : Fin 1)) + v2 (ix2 (0 : Fin 1) k)) (Cert.Spec.alpha * (v0 (ix2 p (0 : Fin 1)) + v2 (ix2 (0 : Fin 1) k))))
    Cert.Spec.zeroF
  rw [← hA, ← hB]
  rfl

/-- The unnormalised weights: the exponential of each score less its row's maximum. -/
def wgtV : FVec Ideal S512x8192 .f32 :=
  have v15 : FVec Ideal S512 .f32 := multiReduction .maximumf [1] S512 (scoreV v0 v2 v10) 0xFF800000#32 reduces_S512x8192_S512 (.inl rfl) rfl
  have v16 : FVec Ideal S512x1 .f32 := shapeCast S512x1 v15 shapeCasts_S512_S512x1
  have v17 : FVec Ideal S512x8192 .f32 := broadcastTo S512x8192 v16 broadcasts_S512x1_S512x8192
  have v18 : FVec Ideal S512x8192 .f32 := subf (scoreV v0 v2 v10) v17
  exp v18

/-- At (p, k) it is the weight of neighbour k from row p's data. -/
theorem wgtV_apply (p : Fin 512) (k : Fin 8192) :
    wgtV v0 v2 v10 (ix2 p k)
      = Cert.Spec.wgtK (v0 (ix2 p (0 : Fin 1))) (fun k => v2 (ix2 (0 : Fin 1) k)) (fun k => v10 (ix2 p k)) k := by
  have hS : (fun k => scoreV v0 v2 v10 (ix2 p k))
      = Cert.Spec.scoreK (v0 (ix2 p (0 : Fin 1))) (fun k => v2 (ix2 (0 : Fin 1) k)) (fun k => v10 (ix2 p k)) :=
    funext fun k => scoreV_apply v0 v2 v10 p k
  have hM := rowMax_spread (scoreV v0 v2 v10) p k
  rw [hS] at hM
  unfold Cert.Spec.wgtK Cert.Spec.rowMaxK
  rw [← hM, ← scoreV_apply v0 v2 v10 p k]
  rfl

variable (v22 : Vec Ideal S8192x64 .f32)

/-- The block the body stores, from the weights w: their sums against the features over the normaliser, then elu. -/
def outV (w : FVec Ideal S512x8192 .f32) : FVec Ideal S512x64 .f32 :=
  have v20 : FVec Ideal S512 .f32 := multiReduction .add [1] S512 w 0x00000000#32 reduces_S512x8192_S512 (.inl rfl) rfl
  have v21 : FVec Ideal S512x1 .f32 := shapeCast S512x1 v20 shapeCasts_S512_S512x1
  have v23 : FVec Ideal S8192x64 .f32 := shapeCast S8192x64 v22 shapeCasts_S8192x64_S8192x64
  have cst_10 : FVec Ideal S512x64 .f32 := constant S512x64 .f32 0x00000000#32
  have v24 : FVec Ideal S512x64 .f32 := matmul dot_S512x8192_S8192x64_S512x64_1_0_0_1_n_n none w v23 cst_10
  have v25 : FVec Ideal S512x64 .f32 := broadcastTo S512x64 v21 broadcasts_S512x1_S512x64
  have v26 : FVec Ideal S512x64 .f32 := divf v24 v25
  have cst_11 : Ideal .f32 := Scalar.ofBits .f32 0x00000000#32
  have v27 : FVec Ideal S512x64 .f32 := broadcast S512x64 cst_11
  have v28 : IVec S512x64 1 := cmpf .ogt v26 v27
  have v29 : FVec Ideal S512x64 .f32 := exp v26
  have cst_12 : Ideal .f32 := Scalar.ofBits .f32 0x3F800000#32
  have v30 : FVec Ideal S512x64 .f32 := broadcast S512x64 cst_12
  have v31 : FVec Ideal S512x64 .f32 := subf v29 v30
  select v28 v26 v31

/-- At (p, q), when row p of w holds the weights of row p's data, it is that row's result at column q. -/
theorem outV_apply (w : FVec Ideal S512x8192 .f32) (s1 : EReal) (h2 : Fin 8192 → EReal) (ar : Fin 8192 → BitVec 32)
    (p : Fin 512) (q : Fin 64) (hw : ∀ k, w (ix2 p k) = Cert.Spec.wgtK s1 h2 ar k) :
    outV v22 w (ix2 p q) = Cert.Spec.outK s1 h2 ar (fun k j => v22 (ix2 k j)) q := by
  have hagg : Ideal.div
      (matmul dot_S512x8192_S8192x64_S512x64_1_0_0_1_n_n none w
        (shapeCast S8192x64 v22 shapeCasts_S8192x64_S8192x64 : FVec Ideal S8192x64 .f32)
        (constant (F := Ideal) S512x64 .f32 0x00000000#32) (ix2 p q))
      (broadcastTo S512x64
        (shapeCast S512x1
          (multiReduction (F := Ideal) .add [1] S512 w 0x00000000#32 reduces_S512x8192_S512 (.inl rfl) rfl)
          shapeCasts_S512_S512x1)
        broadcasts_S512x1_S512x64 (ix2 p q))
      = Cert.Spec.aggK s1 h2 ar (fun k j => v22 (ix2 k j)) q := by
    rw [rows_times_feat w v22 p q, rowSum_spread w p q]
    unfold Cert.Spec.aggK Cert.Spec.denK
    exact congrArg₂ Ideal.div (Finset.sum_congr rfl fun k _ => by rw [hw k]) (Finset.sum_congr rfl fun k _ => hw k)
  unfold Cert.Spec.outK
  rw [← hagg]
  rfl

end Attention

theorem attn_row (v0 : Vec Ideal S512x1 .f32) (v2 : Vec Ideal S1x8192 .f32) (v10 : Vec Ideal S512x8192 .i32) (v22 : Vec Ideal S8192x64 .f32)
    (p : Fin 512) (q : Fin 64) :
    k1_pay1 (F := Ideal) v0 v2 v10 v22 (ix2 p q)
      = Cert.Spec.outK (v0 (ix2 p (0 : Fin 1))) (fun k => v2 (ix2 (0 : Fin 1) k)) (fun k => v10 (ix2 p k)) (fun k j => v22 (ix2 k j)) q := by
  show outV v22 (wgtV v0 v2 v10) (ix2 p q) = _
  exact outV_apply v22 (wgtV v0 v2 v10) _ _ _ p q (fun k => wgtV_apply v0 v2 v10 p k)

end Cert.KernelSide

end
-- ==== Proof.KernelProj.lean ====
/-
  The first kernel's three result arrays as functions of the three arrays it reads.
  Its grid has 4 points; point t reads rows 2048·t … 2048·t + 2047 of x and the whole of w and of a, and writes rows
  2048·t … 2048·t + 2047 of the features x·w and of the features against the first and the last 64 entries of a.
  Each stored entry is a sum of products (the body read at an index), so every point writes its block of ONE
  whole-array function; the 4 blocks tile each array.
-/
import proofs.«412186_j24249385353318_3_alg».proof.Proof.Gen.KernelIdeal.Frame
import proofs.«412186_j24249385353318_3_alg».proof.Proof.KernelBlocks
import Idealize.ShloMosaic.Lib.Pipeline.Value
import Idealize.ShloMosaic.Lib.ValueIdx

set_option maxRecDepth 16384

noncomputable section

open scoped BigOperators

namespace Cert.KernelSide

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offs_zero' : (![0, 0] : Fin 2 → Nat) = fun _ => 0 := funext fun a => by fin_cases a <;> rfl

/-- The projected features of every node. -/
def featArr (x : FVec Ideal S8192x512 .f32) (w : FVec Ideal S512x64 .f32) : FVec Ideal S8192x64 .f32 :=
  fun idx => Cert.Spec.feat x w (idx 0) (idx 1)
/-- Every node's features against the first 64 entries of a, as a column. -/
def srcArr (x : FVec Ideal S8192x512 .f32) (w : FVec Ideal S512x64 .f32) (a : FVec Ideal S128x1 .f32) : FVec Ideal S8192x1 .f32 :=
  fun idx => Cert.Spec.srcT x w a (idx 0)
/-- Every node's features against the last 64 entries of a, as a column. -/
def dstArr (x : FVec Ideal S8192x512 .f32) (w : FVec Ideal S512x64 .f32) (a : FVec Ideal S128x1 .f32) : FVec Ideal S8192x1 .f32 :=
  fun idx => Cert.Spec.dstT x w a (idx 0)

/-- The index maps over the 4 points: x's window and the three results' windows move together down the rows, the
    windows of w and a stay at block 0. -/
theorem proj_index_maps : ∀ t : Fin cfg0.N,
    win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_0.index t (0 : Fin 2) ∧ win0_3.index t (1 : Fin 2) = 0
    ∧ win0_4.index t (0 : Fin 2) = win0_0.index t (0 : Fin 2) ∧ win0_4.index t (1 : Fin 2) = 0
    ∧ win0_5.index t (0 : Fin 2) = win0_0.index t (0 : Fin 2) ∧ win0_5.index t (1 : Fin 2) = 0
    ∧ win0_0.index t (0 : Fin 2) ≤ 3 :=
  (by decide +kernel : ∀ t : Fin grid0.N, _)

/-- Every row block is some point's, for each of the three results. -/
theorem proj_index_onto : ∀ q0 : Fin 4, ∃ t : Fin cfg0.N,
    win0_3.index t = ![q0.val, 0] ∧ win0_4.index t = ![q0.val, 0] ∧ win0_5.index t = ![q0.val, 0] :=
  (by decide +kernel : ∀ q0 : Fin 4, ∃ t : Fin grid0.N,
    win0_3.index t = ![q0.val, 0] ∧ win0_4.index t = ![q0.val, 0] ∧ win0_5.index t = ![q0.val, 0])

/-! ## The block reads: an entry of a loaded block is the array's entry at the block's offset -/

theorem x_block (c : Dev nD) (t : Fin cfg0.N) (p : Fin 2048) (k : Fin 512) (r : Fin 8192)
    (hr : r.val = win0_0.index t (0 : Fin 2) * 2048 + p.val) :
    iblk0 V c 0 t (ix2 p k) = V c main_arg0 (ix2 r k) := by
  obtain ⟨e01, -⟩ := proj_index_maps t
  show V c main_arg0 (((cfg0.win 0).blk t).view.emb (ix2 p k)) = _
  refine congrArg (V c main_arg0) ?_
  funext a; apply Fin.ext
  match a with
  | ⟨0, _⟩ => show win0_0.index t (0 : Fin 2) * 2048 + 1 * p.val = r.val; omega
  | ⟨1, _⟩ => show win0_0.index t (1 : Fin 2) * 512 + 1 * k.val = k.val; omega

theorem w_block (c : Dev nD) (t : Fin cfg0.N) (k : Fin 512) (q : Fin 64) :
    iblk0 V c 1 t (ix2 k q) = V c main_arg2 (ix2 k q) := by
  obtain ⟨-, e10, e11, -⟩ := proj_index_maps t
  show V c main_arg2 (((cfg0.win 1).blk t).view.emb (ix2 k q)) = _
  refine congrArg (V c main_arg2) ?_
  funext a; apply Fin.ext
  match a with
  | ⟨0, _⟩ => show win0_1.index t (0 : Fin 2) * 512 + 1 * k.val = k.val; omega
  | ⟨1, _⟩ => show win0_1.index t (1 : Fin 2) * 64 + 1 * q.val = q.val; omega

theorem a_block (c : Dev nD) (t : Fin cfg0.N) (j : Fin 128) (z : Fin 1) :
    iblk0 V c 2 t (ix2 j z) = V c main_arg3 (ix2 j z) := by
  obtain ⟨-, -, -, e20, e21, -⟩ := proj_index_maps t
  show V c main_arg3 (((cfg0.win 2).blk t).view.emb (ix2 j z)) = _
  refine congrArg (V c main_arg3) ?_
  funext a; apply Fin.ext
  match a with
  | ⟨0, _⟩ => show win0_2.index t (0 : Fin 2) * 128 + 1 * j.val = j.val; omega
  | ⟨1, _⟩ => show win0_2.index t (1 : Fin 2) * 1 + 1 * z.val = z.val; omega

/-! ## The features -/

/-- What point t writes back to the features is block t of x·w. -/
theorem feat_flushed (c : Dev nD) (t : Fin cfg0.N) :
    (dat0 V c).flushed 3 t = ((cfg0.win 3).blk t).view.read (Elt Ideal) (featArr (V c main_arg0) (V c main_arg2)) := by
  show (cfg0.win 3).cut (grid0.coords t) ((dat0 V c).after 3 t) = _
  rw [after0_3]
  unfold out0_3
  rw [View.canon_unit_zero offs_zero']
  simp only [View.ld_unit_zero (S := S2048x512) offs_zero', View.ld_unit_zero (S := S512x64) offs_zero']
  obtain ⟨e01, e10, e11, e20, e21, e30, e31, -⟩ := proj_index_maps t
  funext j
  obtain ⟨p, q, rfl⟩ : ∃ (p : Fin 2048) (q : Fin 64), j = ix2 p q := ⟨j 0, j 1, eq_ix2 j⟩
  refine (proj_feat (iblk0 V c 0 t) (iblk0 V c 1 t) p q).trans ?_
  rw [View.read_apply]
  unfold featArr Cert.Spec.feat
  refine Finset.sum_congr rfl fun k _ => ?_
  have hq : (((cfg0.win 3).blk t).view.emb (ix2 p q)) 1 = q := by
    apply Fin.ext
    show win0_3.index t (1 : Fin 2) * 64 + 1 * q.val = q.val; omega
  rw [hq]
  rw [x_block V c t p k ((((cfg0.win 3).blk t).view.emb (ix2 p q)) 0)
      (by show win0_3.index t (0 : Fin 2) * 2048 + 1 * p.val = _; omega), w_block V c t k q]

theorem feat_mem_blk (t : Fin cfg0.N) (i : S8192x64.Idx) :
    i ∈ ((cfg0.win 3).blk t).view.set ↔ ∀ a : Fin 2, win0_3.index t a * S2048x64.size a ≤ (i a).val
      ∧ (i a).val < win0_3.index t a * S2048x64.size a + S2048x64.size a := by
  show i ∈ ((View.whole main_v0_0).slice (win0_3.rect t)).set ↔ _
  rw [View.set_slice_whole, Rect.mem_set_unit]
  exact Iff.rfl

theorem feat_cover (i : S8192x64.Idx) :
    ∃ t : Fin cfg0.N, (cfg0.win 3).flush t = true ∧ i ∈ ((cfg0.win 3).blk t).view.set := by
  have hi0 : (i 0).val < 8192 := (i 0).isLt
  have hi1 : (i 1).val < 64 := (i 1).isLt
  obtain ⟨t, ht, -, -⟩ := proj_index_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [feat_mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 64 ≤ (i 1).val ∧ (i 1).val < win0_3.index t (1 : Fin 2) * 64 + 64; omega

/-- The feature array after the first kernel. -/
theorem feat_final (c : Dev nD) : (dat0 V c).arrAt 3 cfg0.N = featArr (V c main_arg0) (V c main_arg2) :=
  (dat0 V c).arrAt_eq_of_cover 3 _ (fun t _ => feat_flushed V c t) feat_cover

/-! ## The features against the first half of a -/

theorem src_flushed (c : Dev nD) (t : Fin cfg0.N) :
    (dat0 V c).flushed 4 t = ((cfg0.win 4).blk t).view.read (Elt Ideal)
      (srcArr (V c main_arg0) (V c main_arg2) (V c main_arg3)) := by
  show (cfg0.win 4).cut (grid0.coords t) ((dat0 V c).after 4 t) = _
  rw [after0_4]
  unfold out0_4
  rw [View.canon_unit_zero offs_zero']
  simp only [View.ld_unit_zero (S := S2048x512) offs_zero', View.ld_unit_zero (S := S512x64) offs_zero',
    View.ld_unit_zero (S := S128x1) offs_zero']
  obtain ⟨e01, e10, e11, e20, e21, e30, e31, e40, e41, -⟩ := proj_index_maps t
  funext j
  obtain ⟨p, z, rfl⟩ : ∃ (p : Fin 2048) (z : Fin 1), j = ix2 p z := ⟨j 0, j 1, eq_ix2 j⟩
  refine (proj_src (iblk0 V c 0 t) (iblk0 V c 1 t) (iblk0 V c 2 t) p z).trans ?_
  rw [View.read_apply]
  unfold srcArr Cert.Spec.srcT Cert.Spec.feat
  refine Finset.sum_congr rfl fun j _ => ?_
  rw [a_block V c t ⟨j.val, by omega⟩ 0]
  refine congrArg (· * V c main_arg3 (ix2 (⟨j.val, by omega⟩ : Fin 128) (0 : Fin 1))) ?_
  refine Finset.sum_congr rfl fun k _ => ?_
  rw [x_block V c t p k ((((cfg0.win 4).blk t).view.emb (ix2 p z)) 0)
      (by show win0_4.index t (0 : Fin 2) * 2048 + 1 * p.val = _; omega), w_block V c t k j]

theorem src_mem_blk (t : Fin cfg0.N) (i : S8192x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v0_1).slice (win0_4.rect t)).set ↔ _
  rw [View.set_slice_whole, Rect.mem_set_unit]
  exact Iff.rfl

theorem src_cover (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, -, ht, -⟩ := proj_index_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [src_mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1 ≤ (i 1).val ∧ (i 1).val < win0_4.index t (1 : Fin 2) * 1 + 1; omega

/-- The first projection after the first kernel. -/
theorem src_final (c : Dev nD) :
    (dat0 V c).arrAt 4 cfg0.N = srcArr (V c main_arg0) (V c main_arg2) (V c main_arg3) :=
  (dat0 V c).arrAt_eq_of_cover 4 _ (fun t _ => src_flushed V c t) src_cover

/-! ## The features against the second half of a -/

theorem dst_flushed (c : Dev nD) (t : Fin cfg0.N) :
    (dat0 V c).flushed 5 t = ((cfg0.win 5).blk t).view.read (Elt Ideal)
      (dstArr (V c main_arg0) (V c main_arg2) (V c main_arg3)) := by
  show (cfg0.win 5).cut (grid0.coords t) ((dat0 V c).after 5 t) = _
  rw [after0_5]
  unfold out0_5
  rw [View.canon_unit_zero offs_zero']
  simp only [View.ld_unit_zero (S := S2048x512) offs_zero', View.ld_unit_zero (S := S512x64) offs_zero',
    View.ld_unit_zero (S := S128x1) offs_zero']
  obtain ⟨e01, e10, e11, e20, e21, e30, e31, e40, e41, e50, e51, -⟩ := proj_index_maps t
  funext j
  obtain ⟨p, z, rfl⟩ : ∃ (p : Fin 2048) (z : Fin 1), j = ix2 p z := ⟨j 0, j 1, eq_ix2 j⟩
  refine (proj_dst (iblk0 V c 0 t) (iblk0 V c 1 t) (iblk0 V c 2 t) p z).trans ?_
  rw [View.read_apply]
  unfold dstArr Cert.Spec.dstT Cert.Spec.feat
  refine Finset.sum_congr rfl fun j _ => ?_
  rw [a_block V c t ⟨64 + j.val, by omega⟩ 0]
  refine congrArg (· * V c main_arg3 (ix2 (⟨64 + j.val, by omega⟩ : Fin 128) (0 : Fin 1))) ?_
  refine Finset.sum_congr rfl fun k _ => ?_
  rw [x_block V c t p k ((((cfg0.win 5).blk t).view.emb (ix2 p z)) 0)
      (by show win0_5.index t (0 : Fin 2) * 2048 + 1 * p.val = _; omega), w_block V c t k j]

theorem dst_mem_blk (t : Fin cfg0.N) (i : S8192x1.Idx) :
    i ∈ ((cfg0.win 5).blk t).view.set ↔ ∀ a : Fin 2, win0_5.index t a * S2048x1.size a ≤ (i a).val
      ∧ (i a).val < win0_5.index t a * S2048x1.size a + S2048x1.size a := by
  show i ∈ ((View.whole main_v0_2).slice (win0_5.rect t)).set ↔ _
  rw [View.set_slice_whole, Rect.mem_set_unit]
  exact Iff.rfl

theorem dst_cover (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  obtain ⟨t, -, -, ht⟩ := proj_index_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [dst_mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 1 ≤ (i 1).val ∧ (i 1).val < win0_5.index t (1 : Fin 2) * 1 + 1; omega

/-- The second projection after the first kernel. -/
theorem dst_final (c : Dev nD) :
    (dat0 V c).arrAt 5 cfg0.N = dstArr (V c main_arg0) (V c main_arg2) (V c main_arg3) :=
  (dat0 V c).arrAt_eq_of_cover 5 _ (fun t _ => dst_flushed V c t) dst_cover

end Cert.KernelSide

end
-- ==== Proof.KernelAttn.lean ====
/-
  The second kernel's result array as one function of the four arrays it reads.
  Its grid has 16 points; point t reads rows 512·t … 512·t + 511 of the first projection and of the adjacency
  matrix, the whole second projection (one row of 8192) and the whole feature matrix, and writes rows
  512·t … 512·t + 511 of the result. Each stored entry is one attention row's value (the body read at an index), so
  every point writes its block of ONE whole-array function; the 16 blocks tile the array.
-/
import proofs.«412186_j24249385353318_3_alg».proof.Proof.Gen.KernelIdeal.Frame
import proofs.«412186_j24249385353318_3_alg».proof.Proof.KernelBlocks
import Idealize.ShloMosaic.Lib.Pipeline.Value
import Idealize.ShloMosaic.Lib.ValueIdx

set_option maxRecDepth 16384

noncomputable section

namespace Cert.KernelSide

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offs_zero : (![0, 0] : Fin 2 → Nat) = fun _ => 0 := funext fun a => by fin_cases a <;> rfl

/-- The attention of every node: row i from entry i of the first projection, the second projection, row i of the
    adjacency matrix and the feature matrix. -/
def attnArr (h1 : FVec Ideal S8192x1 .f32) (h2 : FVec Ideal S1x8192 .f32) (adj : IVec S8192x8192 32) (hv : FVec Ideal S8192x64 .f32) :
    FVec Ideal S8192x64 .f32 :=
  fun idx => Cert.Spec.outK (h1 (ix2 (idx 0) (0 : Fin 1))) (fun k => h2 (ix2 (0 : Fin 1) k)) (fun k => adj (ix2 (idx 0) k))
    (fun k j => hv (ix2 k j)) (idx 1)

theorem outK_congr {s1 s1' : EReal} {h2 h2' : Fin 8192 → EReal} {ar ar' : Fin 8192 → BitVec 32} {H H' : Fin 8192 → Fin 64 → EReal}
    {j j' : Fin 64} (e0 : s1 = s1') (e1 : h2 = h2') (e2 : ar = ar') (e3 : H = H') (e4 : j = j') :
    Cert.Spec.outK s1 h2 ar H j = Cert.Spec.outK s1' h2' ar' H' j' := by
  subst e0 e1 e2 e3 e4; rfl

/-- The index maps over the 16 points: the row-blocked windows move with the result's window, the whole-array windows
    stay at block 0. -/
theorem attn_index_maps : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) ≤ 15 ∧ win1_4.index t (1 : Fin 2) = 0 :=
  (by decide +kernel : ∀ t : Fin grid1.N, _)

/-- Every row block is some point's. -/
theorem attn_index_onto : ∀ q0 : Fin 16, ∃ t : Fin cfg1.N, win1_4.index t = ![q0.val, 0] :=
  (by decide +kernel : ∀ q0 : Fin 16, ∃ t : Fin grid1.N, win1_4.index t = ![q0.val, 0])

/-- What point t writes back is block t of the whole-array attention of the arrays as the region finds them. -/
theorem attn_flushed (c : Dev nD) (t : Fin cfg1.N) :
    (dat1 V c).flushed 4 t = ((cfg1.win 4).blk t).view.read (Elt Ideal)
      (attnArr (V c main_v0_1) (V c main_v1) (V c main_arg1) (V c main_v0_0)) := by
  show (cfg1.win 4).cut (grid1.coords t) ((dat1 V c).after 4 t) = _
  rw [after1_4]
  unfold out1_4
  rw [View.canon_unit_zero offs_zero]
  simp only [View.ld_unit_zero (S := S512x1) offs_zero, View.ld_unit_zero (S := S1x8192) offs_zero,
    View.ld_unit_zero (S := S512x8192) offs_zero, View.ld_unit_zero (S := S8192x64) offs_zero]
  obtain ⟨e00, e01, e10, e11, e20, e21, e30, e31, e4b, e41⟩ := attn_index_maps t
  funext j
  obtain ⟨p, q, rfl⟩ : ∃ (p : Fin 512) (q : Fin 64), j = ix2 p q := ⟨j 0, j 1, eq_ix2 j⟩
  refine (attn_row (iblk1 V c 0 t) (iblk1 V c 1 t) (iblk1 V c 2 t) (iblk1 V c 3 t) p q).trans ?_
  rw [View.read_apply]
  unfold attnArr
  refine outK_congr ?_ ?_ ?_ ?_ ?_
  · show V c main_v0_1 (((cfg1.win 0).blk t).view.emb (ix2 p (0 : Fin 1))) = _
    refine congrArg (V c main_v0_1) ?_
    funext a; apply Fin.ext
    match a with
    | ⟨0, _⟩ => show win1_0.index t (0 : Fin 2) * 512 + 1 * p.val = win1_4.index t (0 : Fin 2) * 512 + 1 * p.val; omega
    | ⟨1, _⟩ => show win1_0.index t (1 : Fin 2) * 1 + 1 * 0 = 0; omega
  · funext k
    show V c main_v1 (((cfg1.win 1).blk t).view.emb (ix2 (0 : Fin 1) k)) = _
    refine congrArg (V c main_v1) ?_
    funext a; apply Fin.ext
    match a with
    | ⟨0, _⟩ => show win1_1.index t (0 : Fin 2) * 1 + 1 * 0 = 0; omega
    | ⟨1, _⟩ => show win1_1.index t (1 : Fin 2) * 8192 + 1 * k.val = k.val; omega
  · funext k
    show V c main_arg1 (((cfg1.win 2).blk t).view.emb (ix2 p k)) = _
    refine congrArg (V c main_arg1) ?_
    funext a; apply Fin.ext
    match a with
    | ⟨0, _⟩ => show win1_2.index t (0 : Fin 2) * 512 + 1 * p.val = win1_4.index t (0 : Fin 2) * 512 + 1 * p.val; omega
    | ⟨1, _⟩ => show win1_2.index t (1 : Fin 2) * 8192 + 1 * k.val = k.val; omega
  · funext k j
    show V c main_v0_0 (((cfg1.win 3).blk t).view.emb (ix2 k j)) = _
    refine congrArg (V c main_v0_0) ?_
    funext a; apply Fin.ext
    match a with
    | ⟨0, _⟩ => show win1_3.index t (0 : Fin 2) * 8192 + 1 * k.val = k.val; omega
    | ⟨1, _⟩ => show win1_3.index t (1 : Fin 2) * 64 + 1 * j.val = j.val; omega
  · apply Fin.ext
    show q.val = win1_4.index t (1 : Fin 2) * 64 + 1 * q.val
    omega

/-- An index of the result is in point t's block iff each coordinate is in the block's range on its axis. -/
theorem attn_mem_blk (t : Fin cfg1.N) (i : S8192x64.Idx) :
    i ∈ ((cfg1.win 4).blk t).view.set ↔ ∀ a : Fin 2, win1_4.index t a * S512x64.size a ≤ (i a).val
      ∧ (i a).val < win1_4.index t a * S512x64.size a + S512x64.size a := by
  show i ∈ ((View.whole main_v2).slice (win1_4.rect t)).set ↔ _
  rw [View.set_slice_whole, Rect.mem_set_unit]
  exact Iff.rfl

/-- Row r of the result lies in the block of the point whose block index is r / 512. -/
theorem attn_cover (i : S8192x64.Idx) :
    ∃ t : Fin cfg1.N, (cfg1.win 4).flush t = true ∧ i ∈ ((cfg1.win 4).blk t).view.set := by
  have hi0 : (i 0).val < 8192 := (i 0).isLt
  have hi1 : (i 1).val < 64 := (i 1).isLt
  obtain ⟨t, ht⟩ := attn_index_onto ⟨(i 0).val / 512, by omega⟩
  have q0 : win1_4.index t (0 : Fin 2) = (i 0).val / 512 := congrFun ht 0
  have q1 : win1_4.index t (1 : Fin 2) = 0 := congrFun ht 1
  refine ⟨t, flush1_4 t, ?_⟩
  rw [attn_mem_blk]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 64 ≤ (i 1).val ∧ (i 1).val < win1_4.index t (1 : Fin 2) * 64 + 64; omega

/-- The result array after the second kernel: the whole-array attention of the arrays it was entered with. -/
theorem attn_final (c : Dev nD) :
    (dat1 V c).arrAt 4 cfg1.N = attnArr (V c main_v0_1) (V c main_v1) (V c main_arg1) (V c main_v0_0) :=
  (dat1 V c).arrAt_eq_of_cover 4 _ (fun t _ => attn_flushed V c t) attn_cover

end Cert.KernelSide

end
-- ==== Proof.KernelSide.lean ====
/-
  The kernel's run: every weakly fair execution ends with the result array at the layer's value as the kernel
  spells it, the arguments unchanged.

  The program is the projection kernel, one reshape on the host (the second projection, a column of 8192, laid out as
  one row), and the attention kernel. The run leaves the result array at what the attention kernel's write-backs
  leave (its whole-array attention of the arrays it was entered with); those arrays are, through the reshape and the
  projection kernel's write-backs, the features and the two projections of the launch memory's x, w and a, and the
  adjacency matrix as launched. The attention of those is the layer's value.
-/
import proofs.«412186_j24249385353318_3_alg».proof.KernelIdeal
import proofs.«412186_j24249385353318_3_alg».proof.Proof.Gen.KernelIdeal
import proofs.«412186_j24249385353318_3_alg».proof.Proof.Gen.KernelIdeal.Frame
import proofs.«412186_j24249385353318_3_alg».proof.Proof.Spec
import proofs.«412186_j24249385353318_3_alg».proof.Proof.KernelRun
import proofs.«412186_j24249385353318_3_alg».proof.Proof.KernelProj
import proofs.«412186_j24249385353318_3_alg».proof.Proof.KernelAttn
import Idealize.ShloMosaic.Lib.StableHlo.Run
import Idealize.ShloMosaic.Lib.Pipeline.Value

set_option maxRecDepth 16384

noncomputable section

namespace Cert.KernelSide

open Cert.KernelIdeal Cert.KernelIdeal.Gen
open Idealize.ShloMosaic Idealize.ShloMosaic.TcCoe Idealize.ShloMosaic.ValueIdx Idealize.SL.Sem

/-- The attention of the features and the two projections, the second laid out as a row, is the layer's value:
    entry (0, k) of the row is entry (k, 0) of the column. -/
theorem attn_of_proj (x : FVec Ideal S8192x512 .f32) (adj : IVec S8192x8192 32) (w : FVec Ideal S512x64 .f32) (a : FVec Ideal S128x1 .f32)
    (hc : S8192x1.ShapeCasts S1x8192) :
    attnArr (srcArr x w a) (shapeCast S1x8192 (dstArr x w a) hc) adj (featArr x w) = Cert.Spec.resultK x adj w a := by
  funext idx
  unfold attnArr Cert.Spec.resultK
  refine outK_congr rfl ?_ rfl rfl rfl
  funext k
  refine (shapeCast_apply (dstArr x w a) hc (ix2 (0 : Fin 1) k) (ix2 k (0 : Fin 1)) ?_).trans rfl
  rw [Shape.rowMajor_val_two, Shape.rowMajor_val_two]
  show k.val * 1 + 0 = 0 * 8192 + k.val
  omega

variable (m : (ℓ : Loc nD τ sig) → Buf (Elt Ideal) ℓ) (ρ : Dev nD → PrngReg)

/-- After the one host operation between the kernels every buffer is the reshape's result over the projection
    kernel's exit contents. -/
theorem between_eq (c : Dev nD) :
    W2 m ρ c = (StableHlo.reshape main_v0_2 main_v1 rfl shapeCasts_S8192x1_S1x8192 : HloOp τ sig (Elt Ideal)).result (W1 m ρ c) := rfl

/-- The features the attention kernel is entered with. -/
theorem entry_feat (c : Dev nD) :
    V2 m ρ c main_v0_0 = featArr (m ((c : Thread nD τ).loc main_arg0)) (m ((c : Thread nD τ).loc main_arg2)) := by
  show W2 m ρ c (Proc.devRef .tc main_v0_0) = _
  rw [between_eq, StableHlo.reshape_result_ne _ _ _ _ _ _ (W1 m ρ c) (by decide)]
  exact (W1_arr m ρ c 3).trans (feat_final (V0 m ρ) c)

/-- The first projection it is entered with. -/
theorem entry_src (c : Dev nD) :
    V2 m ρ c main_v0_1 = srcArr (m ((c : Thread nD τ).loc main_arg0)) (m ((c : Thread nD τ).loc main_arg2)) (m ((c : Thread nD τ).loc main_arg3)) := by
  show W2 m ρ c (Proc.devRef .tc main_v0_1) = _
  rw [between_eq, StableHlo.reshape_result_ne _ _ _ _ _ _ (W1 m ρ c) (by decide)]
  exact (W1_arr m ρ c 4).trans (src_final (V0 m ρ) c)

/-- The adjacency matrix it is entered with: as launched (neither the projection kernel nor the reshape writes it). -/
theorem entry_adj (c : Dev nD) : V2 m ρ c main_arg1 = m ((c : Thread nD τ).loc main_arg1) := by
  show W2 m ρ c (Proc.devRef .tc main_arg1) = _
  rw [between_eq, StableHlo.reshape_result_ne _ _ _ _ _ _ (W1 m ρ c) (by decide)]
  exact W1_of_ne m ρ c main_arg1 (by decide)

/-- The second projection it is entered with: the projection kernel's column, reshaped to a row. -/
theorem entry_dst (c : Dev nD) :
    V2 m ρ c main_v1 = shapeCast S1x8192
      (dstArr (m ((c : Thread nD τ).loc main_arg0)) (m ((c : Thread nD τ).loc main_arg2)) (m ((c : Thread nD τ).loc main_arg3)))
      shapeCasts_S8192x1_S1x8192 := by
  show W2 m ρ c (Proc.devRef .tc main_v1) = _
  rw [between_eq]
  refine (StableHlo.reshape_result main_v0_2 main_v1 rfl shapeCasts_S8192x1_S1x8192 ⟨by decide, rfl⟩ ⟨by decide, rfl⟩ (W1 m ρ c)).trans ?_
  have hd : W1 m ρ c (Proc.devRef .tc main_v0_2)
      = dstArr (m ((c : Thread nD τ).loc main_arg0)) (m ((c : Thread nD τ).loc main_arg2)) (m ((c : Thread nD τ).loc main_arg3)) :=
    (W1_arr m ρ c 5).trans (dst_final (V0 m ρ) c)
  show (fun i => shapeCast S1x8192 (W1 m ρ c (Proc.devRef .tc main_v0_2)) shapeCasts_S8192x1_S1x8192 i) = _
  rw [hd]

/-- The result array at the last boundary is the layer's value of the launch memory's arguments. -/
theorem result_value (c : Dev nD) :
    W3 m ρ c (Proc.devRef .tc main_v2)
      = Cert.Spec.resultK (m ((c : Thread nD τ).loc main_arg0)) (m ((c : Thread nD τ).loc main_arg1))
          (m ((c : Thread nD τ).loc main_arg2)) (m ((c : Thread nD τ).loc main_arg3)) := by
  refine (W3_arr m ρ c 4).trans ?_
  refine (attn_final (V2 m ρ) c).trans ?_
  rw [entry_src m ρ c, entry_dst m ρ c, entry_adj m ρ c, entry_feat m ρ c]
  exact attn_of_proj _ _ _ _ _

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2)
        = Cert.Spec.resultK (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_value m ρ c), (h c).2⟩) (run_result (F := Ideal) m ρ)

end Cert.KernelSide

end
-- ==== Proof.lean ====
/-
  A dense graph-attention layer (project the node features, score every pair of nodes through a leaky rectifier,
  mask by adjacency with 0, softmax each row, aggregate, elu) computed by two pipelined kernels, against the same
  layer written with plain array operations.

  Both programs end with one function of the argument arrays, read index by index on the extended reals (Spec):
  the kernel's run leaves the result array at `resultK`, the reference's at `resultR`. The two differ in how the
  rectifier and elu are spelt and in whether the softmax's normaliser divides the weighted sum or every weight; they
  agree where every float input is a real number, which is what the precondition says (Finite, Law). The three frames
  are the runs with the result forgotten; the idealization rewrote nothing.
-/
import proofs.«412186_j24249385353318_3_alg».proof.Defs
import proofs.«412186_j24249385353318_3_alg».proof.Proof.Gen.Kernel
import proofs.«412186_j24249385353318_3_alg».proof.Proof.Gen.Kernel.Frame
import proofs.«412186_j24249385353318_3_alg».proof.Proof.Gen.KernelIdeal
import proofs.«412186_j24249385353318_3_alg».proof.Proof.Gen.KernelIdeal.Frame
import proofs.«412186_j24249385353318_3_alg».proof.Proof.Gen.ReferenceIdeal
import proofs.«412186_j24249385353318_3_alg».proof.Proof.Gen.Pre_finite_inputs
import proofs.«412186_j24249385353318_3_alg».proof.Proof.Spec
import proofs.«412186_j24249385353318_3_alg».proof.Proof.Law
import proofs.«412186_j24249385353318_3_alg».proof.Proof.Finite
import proofs.«412186_j24249385353318_3_alg».proof.Proof.RefSide
import proofs.«412186_j24249385353318_3_alg».proof.Proof.KernelSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefSide.run m ρ)

/-- The two runs end at `resultK` and `resultR` of arguments that agree; the precondition makes every float entry
    real, and there the two are one array. -/
theorem algebraic : Cert.algebraic_KernelIdeal_ReferenceIdeal := by
  intro m ρ m' ρ' hpre hagree
  refine ⟨fun c => Cert.Spec.resultK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelSide.run m ρ, ?_⟩
  refine (θ_run Cert.ReferenceIdeal.defs _ _).mono (fun _ h c => ⟨(h c).1.trans ?_, (h c).2⟩) (Cert.RefSide.run m' ρ')
  obtain ⟨hx, hw, ha⟩ := Cert.Finite.of_pre _ _ _ _ (hpre c)
  rw [(hagree c).1, (hagree c).2.1, (hagree c).2.2.1, (hagree c).2.2.2]
  exact (Cert.Spec.resultK_eq_resultR _ _ _ _ hx hw ha).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
